-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg1 : IVec S640000 32) (main_v13 : IVec S_ 1) (main_v15 : IVec S640000 1) (main_c_5 : IVec S_ 32) : IVec S_ 1 :=
  let main_v16 : IVec S640000 32 := broadcastInDim S640000 ![] bcast_S_S640000 main_c_5
  let main_v17 : IVec S640000 1 := cmpi .slt main_arg1 main_v16
  let main_v18 : IVec S640000 1 := andi main_v15 main_v17
  let main_c_6 : IVec S_ 1 := constantI S_ 1 1#1
  let main_v19 : IVec S_ 1 := (fun x v => Host.reduce IntOp.andi x v reducesTo_S640000_S_d0 h_S_) main_v18 main_c_6
  let main_v20 : IVec S_ 1 := andi main_v13 main_v19
  main_v20

def fn {F : FTy → Type} [FloatOps F] (main_arg0 : FVec F S10000x128 .f32) (main_arg1 : IVec S640000 32) (main_arg2 : IVec S640000 32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S640000 32 := broadcastInDim S640000 ![] bcast_S_S640000 main_c_4
  let main_v15 : IVec S640000 1 := cmpi .sge main_arg1 main_v14
  let main_c_5 : IVec S_ 32 := constantI S_ 32 10000#32
  fn_part1 (F := F) main_arg1 main_v13 main_v15 main_c_5
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S640000x1 : Shape := ⟨2, ![640000, 1]⟩
abbrev S10112x128 : Shape := ⟨2, ![10112, 128]⟩
abbrev S112x128 : Shape := ⟨2, ![112, 128]⟩
abbrev S2x10112x128 : Shape := ⟨3, ![2, 10112, 128]⟩
abbrev S512x1 : Shape := ⟨2, ![512, 1]⟩
abbrev S1x10112x128 : Shape := ⟨3, ![1, 10112, 128]⟩
abbrev S1x10112 : Shape := ⟨2, ![1, 10112]⟩
abbrev S512x10112 : Shape := ⟨2, ![512, 10112]⟩
abbrev S512x128 : Shape := ⟨2, ![512, 128]⟩
abbrev S1x128 : Shape := ⟨2, ![1, 128]⟩

abbrev nBuf : Space → Nat
  | .hbm => 18
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S640000x1, .i32⟩
  | .hbm, ⟨6, _⟩ => ⟨S640000x1, .i32⟩
  | .hbm, ⟨7, _⟩ => ⟨S10112x128, .bf16⟩
  | .hbm, ⟨8, _⟩ => ⟨S2x10112x128, .f32⟩
  | .hbm, ⟨9, _⟩ => ⟨S1x10112x128, .f32⟩
  | .hbm, ⟨10, _⟩ => ⟨S10112x128, .f32⟩
  | .hbm, ⟨11, _⟩ => ⟨S1x10112x128, .f32⟩
  | .hbm, ⟨12, _⟩ => ⟨S10112x128, .f32⟩
  | .hbm, ⟨13, _⟩ => ⟨S10112x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10112x128, .bf16⟩
  | .local _ .vmem, ⟨3, _⟩ => ⟨S512x1, .i32⟩
  | .local _ .vmem, ⟨4, _⟩ => ⟨S512x1, .i32⟩
  | .local _ .vmem, ⟨5, _⟩ => ⟨S512x1, .i32⟩
  | .local _ .vmem, ⟨6, _⟩ => ⟨S512x1, .i32⟩
  | .local _ .vmem, ⟨7, _⟩ => ⟨S10112x128, .bf16⟩
  | .local _ .vmem, ⟨8, _⟩ => ⟨S1x10112x128, .f32⟩
  | .local _ .vmem, ⟨9, _⟩ => ⟨S10112x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10112x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 625], ![false, false]⟩

def k1_cond2 (i : grid1.Coords) : BitVec 1 :=
  let arg1 : BitVec 32 := BitVec.ofNat 32 (i 1).val
  let c624_i32 : BitVec 32 := 624#32
  let v30 : BitVec 1 := Scalar.cmpi .eq arg1 c624_i32
  let v31 : BitVec 32 := Scalar.extui v30
  let c0_i32_11 : BitVec 32 := 0#32
  let v32 : BitVec 1 := Scalar.cmpi .ne v31 c0_i32_11
  v32

def cc1_transform_0 (i : grid1.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S10112x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x10112x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

class Facts₀ : Prop where
  shapeCasts_S640000_S640000x1 : S640000.ShapeCasts S640000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10112x128_S10000x128_0_0 : ∀ a, (![0, 0] : Fin 2 → Nat) a + S10000x128.size a ≤ S10112x128.size a
  packedbf16_S10112x128_S10000x128_0_0 : (Rect.unit (s := S10112x128) ![0, 0] S10000x128.size inb_S10112x128_S10000x128_0_0).PackedRows (EltTy.packing .bf16)
  inb_S10112x128_S112x128_10000_0 : ∀ a, (![10000, 0] : Fin 2 → Nat) a + S112x128.size a ≤ S10112x128.size a
  h_S112x128 : 0 < S112x128.numel
  packedbf16_S10112x128_S112x128_10000_0 : (Rect.unit (s := S10112x128) ![10000, 0] S112x128.size inb_S10112x128_S112x128_10000_0).PackedRows (EltTy.packing .bf16)
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x10112_d1_w32 : S1x10112.Iotas .tc 32 [1]
  broadcasts_S512x1_S512x10112 : S512x1.Broadcasts S512x10112
  broadcasts_S1x10112_S512x10112 : S1x10112.Broadcasts S512x10112
  natLt_1_32 : 1 < 32
  inb_S1x10112x128_S1x10112x128_0_0_0 : ∀ a, (![0, 0, 0] : Fin 3 → Nat) a + S1x10112x128.size a ≤ S1x10112x128.size a
  h_S1x10112x128 : 0 < S1x10112x128.numel
  shapeCasts_S1x10112x128_S10112x128 : S1x10112x128.ShapeCasts S10112x128
  shapeCasts_S10112x128_S1x10112x128 : S10112x128.ShapeCasts S1x10112x128
  slices_S2x10112x128_S1x10112x128_0_0_0 : S2x10112x128.Slices ![0, 0, 0] S1x10112x128
  slices_S2x10112x128_S1x10112x128_1_0_0 : S2x10112x128.Slices ![1, 0, 0] S1x10112x128
  slices_S10112x128_S10000x128_0_0 : S10112x128.Slices ![0, 0] S10000x128
  shapeCasts_S128_S1x128 : S128.ShapeCasts S1x128
  bcast_S1x128_S10000x128_0_1 : S1x128.BroadcastsInDim S10000x128 (![0, 1] : Fin 2 → Fin S10000x128.rank)
  dot_S10000x128_S128x128_S10000x128_1_1_0_0_n_n_wf : DotDims.WF S10000x128 S128x128 S10000x128 [1] [1] [0] [0] [] []
  dot_S512x10112_S10112x128_S512x128_1_0_0_1_n_n_wf : DotDims.WF S512x10112 S10112x128 S512x128 [1] [0] [0] [1] [] []
  dot_S512x10112_S512x128_S10112x128_0_0_1_1_n_n_wf : DotDims.WF S512x10112 S512x128 S10112x128 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10112x128.size a ≤ S10112x128.size a
  hwx0_2 : ∀ i : grid0.Coords, EltTy.bits .bf16 = 32 ∨ (Rect.block (s := S10112x128) S10112x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S640000x1.size a
  hwx1_0 : ∀ i : grid1.Coords, EltTy.bits .i32 = 32 ∨ (Rect.block (s := S640000x1) S512x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S640000x1.size a
  hwx1_1 : ∀ i : grid1.Coords, EltTy.bits .i32 = 32 ∨ (Rect.block (s := S640000x1) S512x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10112x128.size a ≤ S10112x128.size a
  hwx1_2 : ∀ i : grid1.Coords, EltTy.bits .bf16 = 32 ∨ (Rect.block (s := S10112x128) S10112x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x10112x128.size a ≤ S2x10112x128.size a
  hwx1_3 : ∀ i : grid1.Coords, EltTy.bits .f32 = 32 ∨ (Rect.block (s := S2x10112x128) S1x10112x128.size (cc1_transform_3 i) (hinb1_3 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S512x10112_S10112x128_S512x128_1_0_0_1_n_n : DotDims S512x10112 S10112x128 S512x128 where
  lhsContracting := [1]
  rhsContracting := [0]
  lhsNonContracting := [0]
  rhsNonContracting := [1]
  lhsBatch := []
  rhsBatch := []
  wf := dot_S512x10112_S10112x128_S512x128_1_0_0_1_n_n_wf
def dot_S512x10112_S512x128_S10112x128_0_0_1_1_n_n : DotDims S512x10112 S512x128 S10112x128 where
  lhsContracting := [0]
  rhsContracting := [0]
  lhsNonContracting := [1]
  rhsNonContracting := [1]
  lhsBatch := []
  rhsBatch := []
  wf := dot_S512x10112_S512x128_S10112x128_0_0_1_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S10112x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S10112x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x10112x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S10000x128, .f32⟩
  | .hbm, ⟨16, _⟩ => ⟨S640000x1, .i32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_1_0_0_n_n_wf : DotDims.WF S10000x128 S128x128 S10000x128 [1] [1] [0] [0] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf

class Facts : Prop extends Facts₀ where

variable [Facts]
-- ==== Proof.FI.R0.lean ====
/- Region 0 (the node-table transform, one grid point): what its body leaves in the output window and that the
   body meets the pipeline's obligation. -/
import proofs.«401872_j33182917328985_3_alg».proof.Proof.Gen.KernelIdeal.Launch
import proofs.«401872_j33182917328985_3_alg».proof.Proof.Gen.KernelIdeal.Skeleton
import proofs.«401872_j33182917328985_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of input 0, the whole of input 1, the output's rows 0..9999 and its rows 10000..10111. -/
abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S10112x128 := Rect.unit (s := S10112x128) ![0, 0] S10000x128.size inb_S10112x128_S10000x128_0_0
abbrev r0_3 : Rect S10112x128 := Rect.unit (s := S10112x128) ![10000, 0] S112x128.size inb_S10112x128_S112x128_10000_0

/-! ## What the body leaves in the output window's buffer -/

/-- What the body leaves in the output window's buffer: rows 0..9999 the product payload, rows 10000..10111 zero. -/
def out0_2 (x0 : Vec F S10000x128 .f32) (x1 : Vec F S128x128 .f32) : Vec F S10112x128 .bf16 :=
  View.canon [⟨r0_3, k0_pay2⟩, ⟨r0_2, k0_pay1 (View.ld x0 r0_0) (View.ld x1 r0_1)⟩]

/-- A row below 10000 lies in the first store's rectangle, a row from 10000 on in the second's: together they cover. -/
theorem cover0_2 (p0 : Vec F S112x128 .bf16) (p1 : Vec F S10000x128 .bf16) (y : S10112x128.Idx) :
    ∃ pc ∈ ([⟨r0_3, p0⟩, ⟨r0_2, p1⟩] : List (View.Piece (Elt F) S10112x128 .bf16)), y ∈ pc.1.set := by
  have h0 : (y 0).val < 10112 := (y 0).isLt
  have h1 : (y 1).val < 128 := (y 1).isLt
  by_cases h : (y 0).val < 10000
  · refine ⟨⟨r0_2, p1⟩, by simp, ?_⟩
    show y ∈ r0_2.set
    rw [Rect.mem_set_unit]
    refine Fin.forall_fin_two.mpr ⟨⟨Nat.zero_le _, ?_⟩, ⟨Nat.zero_le _, ?_⟩⟩
    · show (y 0).val < 0 + 10000; omega
    · show (y 1).val < 0 + 128; omega
  · refine ⟨⟨r0_3, p0⟩, by simp, ?_⟩
    show y ∈ r0_3.set
    rw [Rect.mem_set_unit]
    refine Fin.forall_fin_two.mpr ⟨⟨?_, ?_⟩, ⟨Nat.zero_le _, ?_⟩⟩
    · show 10000 ≤ (y 0).val; omega
    · show (y 0).val < 10000 + 112; omega
    · show (y 1).val < 0 + 128; omega

/-! ## The output read at coordinates -/

/-- In the first 10000 rows the output is the product payload at the same row and column. -/
theorem out0_2_top (x0 : Vec F S10000x128 .f32) (x1 : Vec F S128x128 .f32) (p : Fin 10000) (q : Fin 128) :
    out0_2 x0 x1 (ValueIdx.ix2 (⟨p.val, by have := p.isLt; omega⟩ : Fin 10112) q) = k0_pay1 x0 x1 (ValueIdx.ix2 p q) := by
  unfold out0_2
  rw [View.ld_unit_zero (by funext a; fin_cases a <;> rfl) inb_S10000x128_S10000x128_0_0 x0,
    View.ld_unit_zero (by funext a; fin_cases a <;> rfl) inb_S128x128_S128x128_0_0 x1]
  have hp := p.isLt
  rw [View.canon_cons_of_not_mem _ _ (by
    show ¬ (_ ∈ r0_3.set)
    rw [Rect.mem_set_unit]
    intro hall
    have := (hall 0).1
    change 10000 ≤ p.val at this
    omega)]
  have he : r0_2.emb (ValueIdx.ix2 p q) = ValueIdx.ix2 (⟨p.val, by omega⟩ : Fin 10112) q := by
    funext a
    match a with
    | ⟨0, _⟩ => exact Fin.ext (by show 0 + 1 * p.val = p.val; omega)
    | ⟨1, _⟩ => exact Fin.ext (by show 0 + 1 * q.val = q.val; omega)
  rw [← he]
  exact View.canon_cons_emb r0_2 _ _ _

/-- From row 10000 on it is the zero payload at the row less 10000 and the same column. -/
theorem out0_2_bot (x0 : Vec F S10000x128 .f32) (x1 : Vec F S128x128 .f32) (p : Fin 112) (q : Fin 128) :
    out0_2 x0 x1 (ValueIdx.ix2 (⟨10000 + p.val, by have := p.isLt; omega⟩ : Fin 10112) q) = k0_pay2 (F := F) (ValueIdx.ix2 p q) := by
  unfold out0_2
  have hp := p.isLt
  have he : r0_3.emb (ValueIdx.ix2 p q) = ValueIdx.ix2 (⟨10000 + p.val, by omega⟩ : Fin 10112) q := by
    funext a
    match a with
    | ⟨0, _⟩ => exact Fin.ext (by show 10000 + 1 * p.val = 10000 + p.val; omega)
    | ⟨1, _⟩ => exact Fin.ext (by show 0 + 1 * q.val = q.val; omega)
  rw [← he]
  exact View.canon_cons_emb r0_3 _ _ _

/-! ## The body's triple -/

set_option maxHeartbeats 1000000 in
/-- The kernel body on whole staging memrefs, the inputs' at read contents and the output's at anything, runs to the
    continuation holding the inputs' as they were and the output's at out0_2 of the inputs'. -/
theorem sound_kernel0 (c : Dev nD) (E : Set ℕ) (i : grid0.Coords) (arg1 : Memref sig .tc .vmem S10000x128 .f32) (harg1 : arg1.IsWhole)
    (arg2 : Memref sig .tc .vmem S128x128 .f32) (harg2 : arg2.IsWhole) (arg3 : Memref sig .tc .vmem S10112x128 .bf16) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__transform_kernel i arg1 harg1 arg2 harg2 arg3 harg3) K := by
  simp only [cc0__transform_kernel_eq_skeleton]; unfold cc0__transform_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FI.R1Runs.lean ====
/- Region 1 (the edge aggregation, 2 x 625 grid points): what the three runs of its body share. The body's two
   branch conditions in closed form over the grid, where its windows are idle, the staging and scratch memrefs,
   the invariant with the scratch as a memref, and what the body finds in each input window's buffer. -/
import proofs.«401872_j33182917328985_3_alg».proof.Proof.Gen.KernelIdeal.Launch
import proofs.«401872_j33182917328985_3_alg».proof.Proof.Gen.KernelIdeal.Skeleton
import proofs.«401872_j33182917328985_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the entry contents and whose body leaves the block in place: unfetched, the block index
    has not moved. Windows 0 and 1 (fetched at every point) and window 2 (fetched once, its index constant). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the scratch total), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 625): a core's first block. -/
theorem hcond1_0 : ∀ t : Fin cfg1.N, cond1_0 (grid1.coords t) ↔ t.val % 625 = 0 :=
  (by decide +kernel : ∀ t : Fin grid1.N, cond1_0 (grid1.coords t) ↔ t.val % 625 = 0)

/-- The condition of the body's second conditional (the store of the total into the output window). -/
abbrev cond1_1 (i : grid1.Coords) : Prop := k1_cond2 i = 1#1
/-- It holds at the points ≡ 624 (mod 625): a core's last block. -/
theorem hcond1_1 : ∀ t : Fin cfg1.N, cond1_1 (grid1.coords t) ↔ t.val % 625 = 624 :=
  (by decide +kernel : ∀ t : Fin grid1.N, cond1_1 (grid1.coords t) ↔ t.val % 625 = 624)

/-! ## Where the windows are idle -/

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the second condition fails the output window is idle: nothing is stored into it, -/
theorem idleAt1_3 : ∀ t : Fin cfg1.N, ¬cond1_1 (grid1.coords t) → cfg1.idle 3 (grid1.coords t) = true := by
  intro t h
  show (!(k1_cond2 (grid1.coords t) == 1#1)) = true
  simp only [Bool.not_eq_true', beq_eq_false_iff_ne, ne_eq]; exact h
/-- and its block is not written back; -/
theorem noFlush1_3 : ∀ t : Fin cfg1.N, ¬cond1_1 (grid1.coords t) → (cfg1.win 3).flush t = false := by
  intro t h
  rw [← Bool.not_eq_true]; intro hf
  exact h ((hcond1_1 t).mpr ((flush1_3 t).mp hf))
/-- where it holds the window is live. -/
theorem liveAt1_3 : ∀ t : Fin cfg1.N, cond1_1 (grid1.coords t) → cfg1.idle 3 (grid1.coords t) = false := by
  intro t h
  show (!(k1_cond2 (grid1.coords t) == 1#1)) = false
  simp only [Bool.not_eq_false', beq_iff_eq]; exact h

/-! ## The staging and scratch memrefs -/

/-- One staging buffer of the output window, through which its contents are stated. -/
abbrev VO1_3 : View sig .tc .vmem S1x10112x128 .f32 := (Memref.whole cc1_stg3_0 : Memref sig .tc .vmem S1x10112x128 .f32).view
/-- Each window's current staging memref at point t, as the pipeline passes it to the body, and its wholeness. -/
abbrev ms1_0 (t : Fin cfg1.N) : Memref sig .tc .vmem S512x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10112x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x10112x128 .f32 := win1_3.stage (cfg1.slots t 3)
abbrev hs1_3 (t : Fin cfg1.N) : (ms1_3 t).IsWhole := hstage1_3 ((cfg1.slots t 3).cast nbuf1_3)
/-- The scratch total the kernel carries between points, as a memref. -/
abbrev scM1_0 : Memref sig .tc .vmem S10112x128 .f32 := Memref.whole cc1_scratch0
/-- The same as a view: what it holds is stated through it. -/
abbrev VS1_0 : View sig .tc .vmem S10112x128 .f32 := scM1_0.view

/-- The core's other scoped buffers (the first region's staging buffers), each whole at some contents: the body
    does not touch them. -/
def rest1_0 (c : Dev nD) : sProp 𝕄 := iprop(∃ f : Buf (Elt F) ((c : Thread nD τ).loc cc0_stg0_0), ((c : Thread nD τ).loc cc0_stg0_0) ↦{fullShare} f)
def rest1_1 (c : Dev nD) : sProp 𝕄 := iprop(∃ f : Buf (Elt F) ((c : Thread nD τ).loc cc0_stg1_0), ((c : Thread nD τ).loc cc0_stg1_0) ↦{fullShare} f)
def rest1_2 (c : Dev nD) : sProp 𝕄 := iprop(∃ f : Buf (Elt F) ((c : Thread nD τ).loc cc0_stg2_0), ((c : Thread nD τ).loc cc0_stg2_0) ↦{fullShare} f)

/-- The class invariant with the scratch as a memref owned at some contents. -/
theorem PhiA1_eq (c : Dev nD) :
    (Pipeline.ΦA spec1 c : sProp 𝕄)
      = iprop(iprop(rest1_0 c ∗ rest1_1 c ∗ rest1_2 c ∗ (∃ d, owns (c : Thread nD τ) scM1_0 fullShare d)) ∗ (∃ r, prngReg c r)) := by
  unfold Pipeline.ΦA rest1_0 rest1_1 rest1_2; rw [scopedRest1_eq]; simp only [scM1_0, owns_whole]; try rfl

end Cert.KernelIdeal.Hand

end
-- ==== Proof.FI.R1RunA.lean ====
/- Region 1, the body's run at a core's FIRST block (the reset taken, the output store not taken): the scratch is
   reset and then updated; the output window is left untouched. The pieces each buffer ends with are the witness. -/
import proofs.«401872_j33182917328985_3_alg».proof.Proof.FI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 4000000 in
/-- What the body's stores leave in the output window's buffer and in the scratch, as pieces (last first), at a
    core's first block, with the proof that on whole memrefs (the inputs' at their contents, the output's at
    contents handed back untouched, the scratch at anything) the body runs to the continuation holding the inputs
    as they were and the scratch with its pieces written. -/
noncomputable def kernelRun1_A (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : cond1_0 i) (hc1 : ¬cond1_1 i)
    (x0 : Vec F S512x1 .i32) (x1 : Vec F S512x1 .i32) (x2 : Vec F S10112x128 .bf16) :
    Σ' (L3 : List (View.Piece (Elt F) S1x10112x128 .f32)), { LS0 : List (View.Piece (Elt F) S10112x128 .f32) //
      ∀ (xi3 : Vec F S1x10112x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FI.R1RunB.lean ====
/- Region 1, the body's run at a block that is neither a core's first nor its last (no conditional taken): the
   scratch, at what the point before left, is updated; the output window is left untouched. -/
import proofs.«401872_j33182917328985_3_alg».proof.Proof.FI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 4000000 in
/-- What the body's stores leave in the output window's buffer and in the scratch, as pieces (last first), at a
    middle block, with the proof that on whole memrefs (the inputs' at their contents, the output's at contents
    handed back untouched, the scratch at what the point before left) the body runs to the continuation holding
    the inputs as they were and the scratch with its pieces written. -/
noncomputable def kernelRun1_B (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : ¬cond1_1 i)
    (x0 : Vec F S512x1 .i32) (x1 : Vec F S512x1 .i32) (x2 : Vec F S10112x128 .bf16) (xs0 : Vec F S10112x128 .f32) :
    Σ' (L3 : List (View.Piece (Elt F) S1x10112x128 .f32)), { LS0 : List (View.Piece (Elt F) S10112x128 .f32) //
      ∀ (xi3 : Vec F S1x10112x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FI.R1RunC.lean ====
/- Region 1, the body's run at a core's LAST block (the reset not taken, the output store taken): the scratch, at
   what the point before left, is updated and then stored into the output window. -/
import proofs.«401872_j33182917328985_3_alg».proof.Proof.FI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 4000000 in
/-- What the body's stores leave in the output window's buffer and in the scratch, as pieces (last first), at a
    core's last block, with the proof that on whole memrefs (the inputs' at their contents, the output's at
    anything, the scratch at what the point before left) the body runs to the continuation holding the inputs as
    they were and the output's buffer and the scratch with their pieces written. -/
noncomputable def kernelRun1_C (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) :
    Σ' (L3 : List (View.Piece (Elt F) S1x10112x128 .f32)), { LS0 : List (View.Piece (Elt F) S10112x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.FI.R1.lean ====
/- Region 1 (the edge aggregation, 2 x 625 grid points, a scratch total carried from point to point): what the
   scratch and the output window hold after each point, and that the body meets the pipeline's obligation. -/
import proofs.«401872_j33182917328985_3_alg».proof.Proof.FI.R1RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## What each case leaves -/

/-- At a core's first block nothing is stored into the output window (idle there and not written back): no
    pieces, a placeholder nothing consults. -/
def out1_A_3 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : cond1_0 i) (hc1 : ¬cond1_1 i)
    (x0 : Vec F S512x1 .i32) (x1 : Vec F S512x1 .i32) (x2 : Vec F S10112x128 .bf16) : Vec F S1x10112x128 .f32 :=
  VO1_3.read (Elt F) (VO1_3.writes (Elt F) VO1_3.junk (kernelRun1_A c i arg2 harg2 arg3 harg3 arg4 harg4 arg5 harg5 arg6 harg6 hc0 hc1 x0 x1 x2).1)

/-- At a core's first block the scratch's pieces (the reset, then the update) cover it. -/
theorem scover1_A_0 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : cond1_0 i) (hc1 : ¬cond1_1 i)
    (x0 : Vec F S512x1 .i32) (x1 : Vec F S512x1 .i32) (x2 : Vec F S10112x128 .bf16) (y : S10112x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S10112x128.size (by sl_kernel_rfl) y

/-- What a core's first block leaves in the scratch: its pieces read back over junk. -/
def sout1_A_0 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : cond1_0 i) (hc1 : ¬cond1_1 i)
    (x0 : Vec F S512x1 .i32) (x1 : Vec F S512x1 .i32) (x2 : Vec F S10112x128 .bf16) : Vec F S10112x128 .f32 :=
  VS1_0.read (Elt F) (VS1_0.writes (Elt F) VS1_0.junk (kernelRun1_A c i arg2 harg2 arg3 harg3 arg4 harg4 arg5 harg5 arg6 harg6 hc0 hc1 x0 x1 x2).2.1)

/-- At a middle block nothing is stored into the output window: a placeholder nothing consults. -/
def out1_B_3 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : ¬cond1_1 i)
    (x0 : Vec F S512x1 .i32) (x1 : Vec F S512x1 .i32) (x2 : Vec F S10112x128 .bf16) (xs0 : Vec F S10112x128 .f32) : Vec F S1x10112x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- At a middle block the scratch's piece (the update) covers it. -/
theorem scover1_B_0 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : ¬cond1_1 i)
    (x0 : Vec F S512x1 .i32) (x1 : Vec F S512x1 .i32) (x2 : Vec F S10112x128 .bf16) (xs0 : Vec F S10112x128 .f32) (y : S10112x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S10112x128.size (by sl_kernel_rfl) y

/-- What a middle block leaves in the scratch. -/
def sout1_B_0 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : ¬cond1_1 i)
    (x0 : Vec F S512x1 .i32) (x1 : Vec F S512x1 .i32) (x2 : Vec F S10112x128 .bf16) (xs0 : Vec F S10112x128 .f32) : Vec F S10112x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- At a core's last block the output window's piece (the stored total) covers its block. -/
theorem cover1_C_3 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) (y : S1x10112x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x10112x128.size (by sl_kernel_rfl) y

/-- What a core's last block leaves in the output window's buffer. -/
def out1_C_3 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) : Vec F S1x10112x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- At a core's last block the scratch's piece (the update) covers it. -/
theorem scover1_C_0 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) (y : S10112x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S10112x128.size (by sl_kernel_rfl) y

/-- What a core's last block leaves in the scratch. -/
def sout1_C_0 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) : Vec F S10112x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output window and the scratch hold after each point -/

/-- After the body at position n: (the output window's buffer, the scratch). The case the closed forms select at
    n, run at the point's memrefs and input blocks, the scratch at what position n - 1 left. -/
def outsAt1 (c : Dev nD) : (n : ℕ) → n < cfg1.N → Vec F S1x10112x128 .f32 × Vec F S10112x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 625 = 0 then
      if h1 : (n + 1) % 625 = 624 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 625 = 624 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- The contents at a core's first block. -/
theorem outsAt1_A (c : Dev nD) (t : Fin cfg1.N) (h0 : t.val % 625 = 0) (h1 : ¬t.val % 625 = 624) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- The contents at a middle block, over what the point before left. -/
theorem outsAt1_B (c : Dev nD) (t : Fin cfg1.N) (h0 : ¬t.val % 625 = 0) (h1 : ¬t.val % 625 = 624) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The contents at a core's last block, over what the point before left. -/
theorem outsAt1_C (c : Dev nD) (t : Fin cfg1.N) (h0 : ¬t.val % 625 = 0) (h1 : t.val % 625 = 624) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the scoped rest at anything; afterwards the
    scratch at what the point before left, the other scoped buffers at anything. -/
def PhiS1 (c : Dev nD) : (n : ℕ) → n ≤ cfg1.N → sProp 𝕄
  | 0, _ => Pipeline.ΦA spec1 c
  | n + 1, hn => iprop(iprop(rest1_0 c ∗ rest1_1 c ∗ rest1_2 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1_0 c ∗ rest1_1 c ∗ rest1_2 c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(rest1_0 c ∗ rest1_1 c ∗ rest1_2 c ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point. The inputs' memrefs hold their blocks; the closed forms say which case the point is in;
    the invariant hands the body the scratch at what the point before left (at anything at the first point) and
    takes it back at this point's contents; where nothing is stored into the output window its buffer is handed
    back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 1250 := lt_of_lt_of_eq t.isLt (show cfg1.N = 1250 from N_1)
  by_cases h0 : t.val % 625 = 0
  · by_cases h1 : t.val % 625 = 624
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Ha, Hb, Hc, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc HS0 Hg]
        · isplitl [Ha Hb Hc HS0]
          · isplitl [Ha]; · iexact Ha
            isplitl [Hb]; · iexact Hb
            isplitl [Hc]; · iexact Hc
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Ha, Hb, Hc, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Ha Hb Hc HS0 Hg]
        · isplitl [Ha Hb Hc HS0]
          · isplitl [Ha]; · iexact Ha
            isplitl [Hb]; · iexact Hb
            isplitl [Hc]; · iexact Hc
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 625 = 624
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨Ha, Hb, Hc, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Ha Hb Hc HS0 Hg]
        · isplitl [Ha Hb Hc HS0]
          · isplitl [Ha]; · iexact Ha
            isplitl [Hb]; · iexact Hb
            isplitl [Hc]; · iexact Hc
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨Ha, Hb, Hc, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc HS0 Hg]
        · isplitl [Ha Hb Hc HS0]
          · isplitl [Ha]; · iexact Ha
            isplitl [Hb]; · iexact Hb
            isplitl [Hc]; · iexact Hc
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped rest back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, HS0⟩, Hg⟩
  isplitl [Ha Hb Hc HS0]
  · isplitl [Ha]; · iexact Ha
    isplitl [Hb]; · iexact Hb
    isplitl [Hc]; · iexact Hc
    iexists _; iexact HS0
  iexact Hg

/-- After the last point the invariant gives the scoped rest back. -/
theorem hout1 (c : Dev nD) : (dat1 V c).Φ (Fin.last cfg1.N) ⊢ Pipeline.ΦA spec1 c :=
  Phi_out1 V c _ (by rw [Fin.val_last]; have : cfg1.N = 1250 := N_1; omega)

/-! ## The pieces as values -/

/-- The zero offsets, however spelt. -/
theorem hzero1_2 : (![0, 0] : Fin 2 → Nat) = fun _ => 0 := funext fun a => by fin_cases a <;> rfl
theorem hzero1_3 : (![0, 0, 0] : Fin 3 → Nat) = fun _ => 0 := funext fun a => by fin_cases a <;> rfl

/-- A core's first block leaves in the scratch the update of the reset value by the point's blocks. -/
theorem sout1_A_0_eq (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : cond1_0 i) (hc1 : ¬cond1_1 i)
    (x0 : Vec F S512x1 .i32) (x1 : Vec F S512x1 .i32) (x2 : Vec F S10112x128 .bf16) :
    sout1_A_0 c i arg2 harg2 arg3 harg3 arg4 harg4 arg5 harg5 arg6 harg6 hc0 hc1 x0 x1 x2 = k1_pay2 x0 x1 x2 k1_pay1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S10112x128) hzero1_2, View.readCov_unit_zero (S := S10112x128) _ hzero1_2]
  simp only [View.readAt_eq_ld, harg2.read_unread, harg3.read_unread, harg4.read_unread, View.ld_unit_zero (S := S512x1) hzero1_2, View.ld_unit_zero (S := S10112x128) hzero1_2]

/-- A middle block leaves in the scratch the update of what the point before left. -/
theorem sout1_B_0_eq (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : ¬cond1_1 i)
    (x0 : Vec F S512x1 .i32) (x1 : Vec F S512x1 .i32) (x2 : Vec F S10112x128 .bf16) (xs0 : Vec F S10112x128 .f32) :
    sout1_B_0 c i arg2 harg2 arg3 harg3 arg4 harg4 arg5 harg5 arg6 harg6 hc0 hc1 x0 x1 x2 xs0 = k1_pay2 x0 x1 x2 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero hzero1_2]
  simp only [View.readAt_eq_ld, harg2.read_unread, harg3.read_unread, harg4.read_unread, harg6.read_unread, View.ld_unit_zero (S := S512x1) hzero1_2, View.ld_unit_zero (S := S10112x128) hzero1_2]

/-- A core's last block leaves in the scratch the update of what the point before left, -/
theorem sout1_C_0_eq (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) :
    sout1_C_0 c i arg2 harg2 arg3 harg3 arg4 harg4 arg5 harg5 arg6 harg6 hc0 hc1 x0 x1 x2 xs0 = k1_pay2 x0 x1 x2 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hzero1_2]
  simp only [View.readAt_eq_ld, harg2.read_unread, harg3.read_unread, harg4.read_unread, harg6.read_unread, View.ld_unit_zero (S := S512x1) hzero1_2, View.ld_unit_zero (S := S10112x128) hzero1_2]

/-- and in the output window's buffer that total, reshaped. -/
theorem out1_C_3_eq (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) :
    out1_C_3 c i arg2 harg2 arg3 harg3 arg4 harg4 arg5 harg5 arg6 harg6 hc0 hc1 x0 x1 x2 xs0 = k1_pay3 (k1_pay2 x0 x1 x2 xs0) := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hzero1_3]
  simp only [View.readAt_eq_ld, harg2.read_unread, harg3.read_unread, harg4.read_unread, harg6.read_unread, View.ld_unit_zero (S := S512x1) hzero1_2, View.ld_unit_zero (S := S10112x128) hzero1_2, View.readCov_unit_zero (S := S10112x128) _ hzero1_2]

end Cert.KernelIdeal.Hand

end
-- ==== Proof.FB.R0.lean ====
/- Region 0 (the node-table transform, one grid point): what its body leaves in the output window and that the
   body meets the pipeline's obligation. -/
import proofs.«401872_j33182917328985_3_alg».proof.Proof.Gen.Kernel.Launch
import proofs.«401872_j33182917328985_3_alg».proof.Proof.Gen.Kernel.Skeleton
import proofs.«401872_j33182917328985_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of input 0, the whole of input 1, the output's rows 0..9999 and its rows 10000..10111. -/
abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S10112x128 := Rect.unit (s := S10112x128) ![0, 0] S10000x128.size inb_S10112x128_S10000x128_0_0
abbrev r0_3 : Rect S10112x128 := Rect.unit (s := S10112x128) ![10000, 0] S112x128.size inb_S10112x128_S112x128_10000_0

/-! ## What the body leaves in the output window's buffer -/

/-- What the body leaves in the output window's buffer: rows 0..9999 the product payload, rows 10000..10111 zero. -/
def out0_2 (x0 : Vec F S10000x128 .f32) (x1 : Vec F S128x128 .f32) : Vec F S10112x128 .bf16 :=
  View.canon [⟨r0_3, k0_pay2⟩, ⟨r0_2, k0_pay1 (View.ld x0 r0_0) (View.ld x1 r0_1)⟩]

/-- A row below 10000 lies in the first store's rectangle, a row from 10000 on in the second's: together they cover. -/
theorem cover0_2 (p0 : Vec F S112x128 .bf16) (p1 : Vec F S10000x128 .bf16) (y : S10112x128.Idx) :
    ∃ pc ∈ ([⟨r0_3, p0⟩, ⟨r0_2, p1⟩] : List (View.Piece (Elt F) S10112x128 .bf16)), y ∈ pc.1.set := by
  have h0 : (y 0).val < 10112 := (y 0).isLt
  have h1 : (y 1).val < 128 := (y 1).isLt
  by_cases h : (y 0).val < 10000
  · refine ⟨⟨r0_2, p1⟩, by simp, ?_⟩
    show y ∈ r0_2.set
    rw [Rect.mem_set_unit]
    refine Fin.forall_fin_two.mpr ⟨⟨Nat.zero_le _, ?_⟩, ⟨Nat.zero_le _, ?_⟩⟩
    · show (y 0).val < 0 + 10000; omega
    · show (y 1).val < 0 + 128; omega
  · refine ⟨⟨r0_3, p0⟩, by simp, ?_⟩
    show y ∈ r0_3.set
    rw [Rect.mem_set_unit]
    refine Fin.forall_fin_two.mpr ⟨⟨?_, ?_⟩, ⟨Nat.zero_le _, ?_⟩⟩
    · show 10000 ≤ (y 0).val; omega
    · show (y 0).val < 10000 + 112; omega
    · show (y 1).val < 0 + 128; omega

/-! ## The output read at coordinates -/

/-- In the first 10000 rows the output is the product payload at the same row and column. -/
theorem out0_2_top (x0 : Vec F S10000x128 .f32) (x1 : Vec F S128x128 .f32) (p : Fin 10000) (q : Fin 128) :
    out0_2 x0 x1 (ValueIdx.ix2 (⟨p.val, by have := p.isLt; omega⟩ : Fin 10112) q) = k0_pay1 x0 x1 (ValueIdx.ix2 p q) := by
  unfold out0_2
  rw [View.ld_unit_zero (by funext a; fin_cases a <;> rfl) inb_S10000x128_S10000x128_0_0 x0,
    View.ld_unit_zero (by funext a; fin_cases a <;> rfl) inb_S128x128_S128x128_0_0 x1]
  have hp := p.isLt
  rw [View.canon_cons_of_not_mem _ _ (by
    show ¬ (_ ∈ r0_3.set)
    rw [Rect.mem_set_unit]
    intro hall
    have := (hall 0).1
    change 10000 ≤ p.val at this
    omega)]
  have he : r0_2.emb (ValueIdx.ix2 p q) = ValueIdx.ix2 (⟨p.val, by omega⟩ : Fin 10112) q := by
    funext a
    match a with
    | ⟨0, _⟩ => exact Fin.ext (by show 0 + 1 * p.val = p.val; omega)
    | ⟨1, _⟩ => exact Fin.ext (by show 0 + 1 * q.val = q.val; omega)
  rw [← he]
  exact View.canon_cons_emb r0_2 _ _ _

/-- From row 10000 on it is the zero payload at the row less 10000 and the same column. -/
theorem out0_2_bot (x0 : Vec F S10000x128 .f32) (x1 : Vec F S128x128 .f32) (p : Fin 112) (q : Fin 128) :
    out0_2 x0 x1 (ValueIdx.ix2 (⟨10000 + p.val, by have := p.isLt; omega⟩ : Fin 10112) q) = k0_pay2 (F := F) (ValueIdx.ix2 p q) := by
  unfold out0_2
  have hp := p.isLt
  have he : r0_3.emb (ValueIdx.ix2 p q) = ValueIdx.ix2 (⟨10000 + p.val, by omega⟩ : Fin 10112) q := by
    funext a
    match a with
    | ⟨0, _⟩ => exact Fin.ext (by show 10000 + 1 * p.val = 10000 + p.val; omega)
    | ⟨1, _⟩ => exact Fin.ext (by show 0 + 1 * q.val = q.val; omega)
  rw [← he]
  exact View.canon_cons_emb r0_3 _ _ _

/-! ## The body's triple -/

set_option maxHeartbeats 1000000 in
/-- The kernel body on whole staging memrefs, the inputs' at read contents and the output's at anything, runs to the
    continuation holding the inputs' as they were and the output's at out0_2 of the inputs'. -/
theorem sound_kernel0 (c : Dev nD) (E : Set ℕ) (i : grid0.Coords) (arg1 : Memref sig .tc .vmem S10000x128 .f32) (harg1 : arg1.IsWhole)
    (arg2 : Memref sig .tc .vmem S128x128 .f32) (harg2 : arg2.IsWhole) (arg3 : Memref sig .tc .vmem S10112x128 .bf16) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__transform_kernel i arg1 harg1 arg2 harg2 arg3 harg3) K := by
  simp only [cc0__transform_kernel_eq_skeleton]; unfold cc0__transform_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FB.R1Runs.lean ====
/- Region 1 (the edge aggregation, 2 x 625 grid points): what the three runs of its body share. The body's two
   branch conditions in closed form over the grid, where its windows are idle, the staging and scratch memrefs,
   the invariant with the scratch as a memref, and what the body finds in each input window's buffer. -/
import proofs.«401872_j33182917328985_3_alg».proof.Proof.Gen.Kernel.Launch
import proofs.«401872_j33182917328985_3_alg».proof.Proof.Gen.Kernel.Skeleton
import proofs.«401872_j33182917328985_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the entry contents and whose body leaves the block in place: unfetched, the block index
    has not moved. Windows 0 and 1 (fetched at every point) and window 2 (fetched once, its index constant). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the scratch total), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 625): a core's first block. -/
theorem hcond1_0 : ∀ t : Fin cfg1.N, cond1_0 (grid1.coords t) ↔ t.val % 625 = 0 :=
  (by decide +kernel : ∀ t : Fin grid1.N, cond1_0 (grid1.coords t) ↔ t.val % 625 = 0)

/-- The condition of the body's second conditional (the store of the total into the output window). -/
abbrev cond1_1 (i : grid1.Coords) : Prop := k1_cond2 i = 1#1
/-- It holds at the points ≡ 624 (mod 625): a core's last block. -/
theorem hcond1_1 : ∀ t : Fin cfg1.N, cond1_1 (grid1.coords t) ↔ t.val % 625 = 624 :=
  (by decide +kernel : ∀ t : Fin grid1.N, cond1_1 (grid1.coords t) ↔ t.val % 625 = 624)

/-! ## Where the windows are idle -/

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the second condition fails the output window is idle: nothing is stored into it, -/
theorem idleAt1_3 : ∀ t : Fin cfg1.N, ¬cond1_1 (grid1.coords t) → cfg1.idle 3 (grid1.coords t) = true := by
  intro t h
  show (!(k1_cond2 (grid1.coords t) == 1#1)) = true
  simp only [Bool.not_eq_true', beq_eq_false_iff_ne, ne_eq]; exact h
/-- and its block is not written back; -/
theorem noFlush1_3 : ∀ t : Fin cfg1.N, ¬cond1_1 (grid1.coords t) → (cfg1.win 3).flush t = false := by
  intro t h
  rw [← Bool.not_eq_true]; intro hf
  exact h ((hcond1_1 t).mpr ((flush1_3 t).mp hf))
/-- where it holds the window is live. -/
theorem liveAt1_3 : ∀ t : Fin cfg1.N, cond1_1 (grid1.coords t) → cfg1.idle 3 (grid1.coords t) = false := by
  intro t h
  show (!(k1_cond2 (grid1.coords t) == 1#1)) = false
  simp only [Bool.not_eq_false', beq_iff_eq]; exact h

/-! ## The staging and scratch memrefs -/

/-- One staging buffer of the output window, through which its contents are stated. -/
abbrev VO1_3 : View sig .tc .vmem S1x10112x128 .f32 := (Memref.whole cc1_stg3_0 : Memref sig .tc .vmem S1x10112x128 .f32).view
/-- Each window's current staging memref at point t, as the pipeline passes it to the body, and its wholeness. -/
abbrev ms1_0 (t : Fin cfg1.N) : Memref sig .tc .vmem S512x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10112x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x10112x128 .f32 := win1_3.stage (cfg1.slots t 3)
abbrev hs1_3 (t : Fin cfg1.N) : (ms1_3 t).IsWhole := hstage1_3 ((cfg1.slots t 3).cast nbuf1_3)
/-- The scratch total the kernel carries between points, as a memref. -/
abbrev scM1_0 : Memref sig .tc .vmem S10112x128 .f32 := Memref.whole cc1_scratch0
/-- The same as a view: what it holds is stated through it. -/
abbrev VS1_0 : View sig .tc .vmem S10112x128 .f32 := scM1_0.view

/-- The core's other scoped buffers (the first region's staging buffers), each whole at some contents: the body
    does not touch them. -/
def rest1_0 (c : Dev nD) : sProp 𝕄 := iprop(∃ f : Buf (Elt F) ((c : Thread nD τ).loc cc0_stg0_0), ((c : Thread nD τ).loc cc0_stg0_0) ↦{fullShare} f)
def rest1_1 (c : Dev nD) : sProp 𝕄 := iprop(∃ f : Buf (Elt F) ((c : Thread nD τ).loc cc0_stg1_0), ((c : Thread nD τ).loc cc0_stg1_0) ↦{fullShare} f)
def rest1_2 (c : Dev nD) : sProp 𝕄 := iprop(∃ f : Buf (Elt F) ((c : Thread nD τ).loc cc0_stg2_0), ((c : Thread nD τ).loc cc0_stg2_0) ↦{fullShare} f)

/-- The class invariant with the scratch as a memref owned at some contents. -/
theorem PhiA1_eq (c : Dev nD) :
    (Pipeline.ΦA spec1 c : sProp 𝕄)
      = iprop(iprop(rest1_0 c ∗ rest1_1 c ∗ rest1_2 c ∗ (∃ d, owns (c : Thread nD τ) scM1_0 fullShare d)) ∗ (∃ r, prngReg c r)) := by
  unfold Pipeline.ΦA rest1_0 rest1_1 rest1_2; rw [scopedRest1_eq]; simp only [scM1_0, owns_whole]; try rfl

end Cert.Kernel.Hand

end
-- ==== Proof.FB.R1RunA.lean ====
/- Region 1, the body's run at a core's FIRST block (the reset taken, the output store not taken): the scratch is
   reset and then updated; the output window is left untouched. The pieces each buffer ends with are the witness. -/
import proofs.«401872_j33182917328985_3_alg».proof.Proof.FB.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 4000000 in
/-- What the body's stores leave in the output window's buffer and in the scratch, as pieces (last first), at a
    core's first block, with the proof that on whole memrefs (the inputs' at their contents, the output's at
    contents handed back untouched, the scratch at anything) the body runs to the continuation holding the inputs
    as they were and the scratch with its pieces written. -/
noncomputable def kernelRun1_A (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : cond1_0 i) (hc1 : ¬cond1_1 i)
    (x0 : Vec F S512x1 .i32) (x1 : Vec F S512x1 .i32) (x2 : Vec F S10112x128 .bf16) :
    Σ' (L3 : List (View.Piece (Elt F) S1x10112x128 .f32)), { LS0 : List (View.Piece (Elt F) S10112x128 .f32) //
      ∀ (xi3 : Vec F S1x10112x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FB.R1RunB.lean ====
/- Region 1, the body's run at a block that is neither a core's first nor its last (no conditional taken): the
   scratch, at what the point before left, is updated; the output window is left untouched. -/
import proofs.«401872_j33182917328985_3_alg».proof.Proof.FB.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 4000000 in
/-- What the body's stores leave in the output window's buffer and in the scratch, as pieces (last first), at a
    middle block, with the proof that on whole memrefs (the inputs' at their contents, the output's at contents
    handed back untouched, the scratch at what the point before left) the body runs to the continuation holding
    the inputs as they were and the scratch with its pieces written. -/
noncomputable def kernelRun1_B (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : ¬cond1_1 i)
    (x0 : Vec F S512x1 .i32) (x1 : Vec F S512x1 .i32) (x2 : Vec F S10112x128 .bf16) (xs0 : Vec F S10112x128 .f32) :
    Σ' (L3 : List (View.Piece (Elt F) S1x10112x128 .f32)), { LS0 : List (View.Piece (Elt F) S10112x128 .f32) //
      ∀ (xi3 : Vec F S1x10112x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FB.R1RunC.lean ====
/- Region 1, the body's run at a core's LAST block (the reset not taken, the output store taken): the scratch, at
   what the point before left, is updated and then stored into the output window. -/
import proofs.«401872_j33182917328985_3_alg».proof.Proof.FB.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 4000000 in
/-- What the body's stores leave in the output window's buffer and in the scratch, as pieces (last first), at a
    core's last block, with the proof that on whole memrefs (the inputs' at their contents, the output's at
    anything, the scratch at what the point before left) the body runs to the continuation holding the inputs as
    they were and the output's buffer and the scratch with their pieces written. -/
noncomputable def kernelRun1_C (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) :
    Σ' (L3 : List (View.Piece (Elt F) S1x10112x128 .f32)), { LS0 : List (View.Piece (Elt F) S10112x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.FB.R1.lean ====
/- Region 1 (the edge aggregation, 2 x 625 grid points, a scratch total carried from point to point): what the
   scratch and the output window hold after each point, and that the body meets the pipeline's obligation. -/
import proofs.«401872_j33182917328985_3_alg».proof.Proof.FB.R1RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## What each case leaves -/

/-- At a core's first block nothing is stored into the output window (idle there and not written back): no
    pieces, a placeholder nothing consults. -/
def out1_A_3 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : cond1_0 i) (hc1 : ¬cond1_1 i)
    (x0 : Vec F S512x1 .i32) (x1 : Vec F S512x1 .i32) (x2 : Vec F S10112x128 .bf16) : Vec F S1x10112x128 .f32 :=
  VO1_3.read (Elt F) (VO1_3.writes (Elt F) VO1_3.junk (kernelRun1_A c i arg2 harg2 arg3 harg3 arg4 harg4 arg5 harg5 arg6 harg6 hc0 hc1 x0 x1 x2).1)

/-- At a core's first block the scratch's pieces (the reset, then the update) cover it. -/
theorem scover1_A_0 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : cond1_0 i) (hc1 : ¬cond1_1 i)
    (x0 : Vec F S512x1 .i32) (x1 : Vec F S512x1 .i32) (x2 : Vec F S10112x128 .bf16) (y : S10112x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S10112x128.size (by sl_kernel_rfl) y

/-- What a core's first block leaves in the scratch: its pieces read back over junk. -/
def sout1_A_0 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : cond1_0 i) (hc1 : ¬cond1_1 i)
    (x0 : Vec F S512x1 .i32) (x1 : Vec F S512x1 .i32) (x2 : Vec F S10112x128 .bf16) : Vec F S10112x128 .f32 :=
  VS1_0.read (Elt F) (VS1_0.writes (Elt F) VS1_0.junk (kernelRun1_A c i arg2 harg2 arg3 harg3 arg4 harg4 arg5 harg5 arg6 harg6 hc0 hc1 x0 x1 x2).2.1)

/-- At a middle block nothing is stored into the output window: a placeholder nothing consults. -/
def out1_B_3 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : ¬cond1_1 i)
    (x0 : Vec F S512x1 .i32) (x1 : Vec F S512x1 .i32) (x2 : Vec F S10112x128 .bf16) (xs0 : Vec F S10112x128 .f32) : Vec F S1x10112x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- At a middle block the scratch's piece (the update) covers it. -/
theorem scover1_B_0 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : ¬cond1_1 i)
    (x0 : Vec F S512x1 .i32) (x1 : Vec F S512x1 .i32) (x2 : Vec F S10112x128 .bf16) (xs0 : Vec F S10112x128 .f32) (y : S10112x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S10112x128.size (by sl_kernel_rfl) y

/-- What a middle block leaves in the scratch. -/
def sout1_B_0 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : ¬cond1_1 i)
    (x0 : Vec F S512x1 .i32) (x1 : Vec F S512x1 .i32) (x2 : Vec F S10112x128 .bf16) (xs0 : Vec F S10112x128 .f32) : Vec F S10112x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- At a core's last block the output window's piece (the stored total) covers its block. -/
theorem cover1_C_3 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) (y : S1x10112x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x10112x128.size (by sl_kernel_rfl) y

/-- What a core's last block leaves in the output window's buffer. -/
def out1_C_3 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) : Vec F S1x10112x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- At a core's last block the scratch's piece (the update) covers it. -/
theorem scover1_C_0 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) (y : S10112x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S10112x128.size (by sl_kernel_rfl) y

/-- What a core's last block leaves in the scratch. -/
def sout1_C_0 (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) : Vec F S10112x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output window and the scratch hold after each point -/

/-- After the body at position n: (the output window's buffer, the scratch). The case the closed forms select at
    n, run at the point's memrefs and input blocks, the scratch at what position n - 1 left. -/
def outsAt1 (c : Dev nD) : (n : ℕ) → n < cfg1.N → Vec F S1x10112x128 .f32 × Vec F S10112x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 625 = 0 then
      if h1 : (n + 1) % 625 = 624 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 625 = 624 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- The contents at a core's first block. -/
theorem outsAt1_A (c : Dev nD) (t : Fin cfg1.N) (h0 : t.val % 625 = 0) (h1 : ¬t.val % 625 = 624) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- The contents at a middle block, over what the point before left. -/
theorem outsAt1_B (c : Dev nD) (t : Fin cfg1.N) (h0 : ¬t.val % 625 = 0) (h1 : ¬t.val % 625 = 624) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The contents at a core's last block, over what the point before left. -/
theorem outsAt1_C (c : Dev nD) (t : Fin cfg1.N) (h0 : ¬t.val % 625 = 0) (h1 : t.val % 625 = 624) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the scoped rest at anything; afterwards the
    scratch at what the point before left, the other scoped buffers at anything. -/
def PhiS1 (c : Dev nD) : (n : ℕ) → n ≤ cfg1.N → sProp 𝕄
  | 0, _ => Pipeline.ΦA spec1 c
  | n + 1, hn => iprop(iprop(rest1_0 c ∗ rest1_1 c ∗ rest1_2 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1_0 c ∗ rest1_1 c ∗ rest1_2 c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(rest1_0 c ∗ rest1_1 c ∗ rest1_2 c ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point. The inputs' memrefs hold their blocks; the closed forms say which case the point is in;
    the invariant hands the body the scratch at what the point before left (at anything at the first point) and
    takes it back at this point's contents; where nothing is stored into the output window its buffer is handed
    back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 1250 := lt_of_lt_of_eq t.isLt (show cfg1.N = 1250 from N_1)
  by_cases h0 : t.val % 625 = 0
  · by_cases h1 : t.val % 625 = 624
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Ha, Hb, Hc, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc HS0 Hg]
        · isplitl [Ha Hb Hc HS0]
          · isplitl [Ha]; · iexact Ha
            isplitl [Hb]; · iexact Hb
            isplitl [Hc]; · iexact Hc
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Ha, Hb, Hc, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Ha Hb Hc HS0 Hg]
        · isplitl [Ha Hb Hc HS0]
          · isplitl [Ha]; · iexact Ha
            isplitl [Hb]; · iexact Hb
            isplitl [Hc]; · iexact Hc
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 625 = 624
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨Ha, Hb, Hc, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Ha Hb Hc HS0 Hg]
        · isplitl [Ha Hb Hc HS0]
          · isplitl [Ha]; · iexact Ha
            isplitl [Hb]; · iexact Hb
            isplitl [Hc]; · iexact Hc
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨Ha, Hb, Hc, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc HS0 Hg]
        · isplitl [Ha Hb Hc HS0]
          · isplitl [Ha]; · iexact Ha
            isplitl [Hb]; · iexact Hb
            isplitl [Hc]; · iexact Hc
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped rest back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, HS0⟩, Hg⟩
  isplitl [Ha Hb Hc HS0]
  · isplitl [Ha]; · iexact Ha
    isplitl [Hb]; · iexact Hb
    isplitl [Hc]; · iexact Hc
    iexists _; iexact HS0
  iexact Hg

/-- After the last point the invariant gives the scoped rest back. -/
theorem hout1 (c : Dev nD) : (dat1 V c).Φ (Fin.last cfg1.N) ⊢ Pipeline.ΦA spec1 c :=
  Phi_out1 V c _ (by rw [Fin.val_last]; have : cfg1.N = 1250 := N_1; omega)

/-! ## The pieces as values -/

/-- The zero offsets, however spelt. -/
theorem hzero1_2 : (![0, 0] : Fin 2 → Nat) = fun _ => 0 := funext fun a => by fin_cases a <;> rfl
theorem hzero1_3 : (![0, 0, 0] : Fin 3 → Nat) = fun _ => 0 := funext fun a => by fin_cases a <;> rfl

/-- A core's first block leaves in the scratch the update of the reset value by the point's blocks. -/
theorem sout1_A_0_eq (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : cond1_0 i) (hc1 : ¬cond1_1 i)
    (x0 : Vec F S512x1 .i32) (x1 : Vec F S512x1 .i32) (x2 : Vec F S10112x128 .bf16) :
    sout1_A_0 c i arg2 harg2 arg3 harg3 arg4 harg4 arg5 harg5 arg6 harg6 hc0 hc1 x0 x1 x2 = k1_pay2 x0 x1 x2 k1_pay1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S10112x128) hzero1_2, View.readCov_unit_zero (S := S10112x128) _ hzero1_2]
  simp only [View.readAt_eq_ld, harg2.read_unread, harg3.read_unread, harg4.read_unread, View.ld_unit_zero (S := S512x1) hzero1_2, View.ld_unit_zero (S := S10112x128) hzero1_2]

/-- A middle block leaves in the scratch the update of what the point before left. -/
theorem sout1_B_0_eq (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : ¬cond1_1 i)
    (x0 : Vec F S512x1 .i32) (x1 : Vec F S512x1 .i32) (x2 : Vec F S10112x128 .bf16) (xs0 : Vec F S10112x128 .f32) :
    sout1_B_0 c i arg2 harg2 arg3 harg3 arg4 harg4 arg5 harg5 arg6 harg6 hc0 hc1 x0 x1 x2 xs0 = k1_pay2 x0 x1 x2 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero hzero1_2]
  simp only [View.readAt_eq_ld, harg2.read_unread, harg3.read_unread, harg4.read_unread, harg6.read_unread, View.ld_unit_zero (S := S512x1) hzero1_2, View.ld_unit_zero (S := S10112x128) hzero1_2]

/-- A core's last block leaves in the scratch the update of what the point before left, -/
theorem sout1_C_0_eq (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) :
    sout1_C_0 c i arg2 harg2 arg3 harg3 arg4 harg4 arg5 harg5 arg6 harg6 hc0 hc1 x0 x1 x2 xs0 = k1_pay2 x0 x1 x2 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hzero1_2]
  simp only [View.readAt_eq_ld, harg2.read_unread, harg3.read_unread, harg4.read_unread, harg6.read_unread, View.ld_unit_zero (S := S512x1) hzero1_2, View.ld_unit_zero (S := S10112x128) hzero1_2]

/-- and in the output window's buffer that total, reshaped. -/
theorem out1_C_3_eq (c : Dev nD) (i : grid1.Coords) (arg2 : Memref sig .tc .vmem S512x1 .i32) (harg2 : arg2.IsWhole) (arg3 : Memref sig .tc .vmem S512x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S10112x128 .f32) (harg6 : arg6.IsWhole) (hc0 : ¬cond1_0 i) (hc1 : cond1_1 i)
    (x0 : Vec F S512x1 .i32) (x1 : Vec F S512x1 .i32) (x2 : Vec F S10112x128 .bf16) (xs0 : Vec F S10112x128 .f32) :
    out1_C_3 c i arg2 harg2 arg3 harg3 arg4 harg4 arg5 harg5 arg6 harg6 hc0 hc1 x0 x1 x2 xs0 = k1_pay3 (k1_pay2 x0 x1 x2 xs0) := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hzero1_3]
  simp only [View.readAt_eq_ld, harg2.read_unread, harg3.read_unread, harg4.read_unread, harg6.read_unread, View.ld_unit_zero (S := S512x1) hzero1_2, View.ld_unit_zero (S := S10112x128) hzero1_2, View.readCov_unit_zero (S := S10112x128) _ hzero1_2]

end Cert.Kernel.Hand

end
-- ==== Proof.Spec.lean ====
/-
  The mathematics both programs compute, index by index, over the extended reals.

  A graph layer: every edge e carries the features of its source node to its destination node, the messages
  arriving at a node are summed, and the sums go through a dense linear map with a bias:
      out(n, o) = Σ_k (Σ_{e : dst e = n} x(src e, k)) · W(o, k) + b(o).
  That is `Rform`: gather, add up per destination, then multiply.

  The kernel multiplies first: it tabulates XW(n', o) = Σ_k x(n', k) · W(o, k) once (padded with zero rows up to
  10112), and then, 512 edges at a time, picks rows of that table by a one-hot sum over the table's rows and
  adds them into the destination rows by a second one-hot sum over the block's edges.  Each of two cores adds up 625
  such blocks, starting from zero, and the two totals are added.  That is `Kform`.

  The two agree when the features and weights are real numbers (moving a factor across a sum is not valid at
  infinities) and every source index is a node.
-/
import Idealize.ShloMosaic.PureOps.Ideal
import Idealize.ShloMosaic.Lib.ValueIdx

noncomputable section

namespace Cert.Spec

open Idealize.ShloMosaic Idealize.ShloMosaic.ValueIdx

/-- 1 where the proposition holds, 0 where it does not. -/
def oh (p : Prop) [Decidable p] : EReal := if p then 1 else 0

/-- Edge number `512 * B + e'` of block `B`. -/
def edge (B : Fin 1250) (e' : Fin 512) : Fin 640000 := ⟨512 * B.val + e'.val, by have := B.isLt; have := e'.isLt; omega⟩

/-- Block number `625 * c + i`: core `c`'s `i`-th block. -/
def blockOf (c : Fin 2) (i : ℕ) (hi : i < 625) : Fin 1250 := ⟨625 * c.val + i, by have := c.isLt; omega⟩

/-! ### General facts: one-hot factors, real sums inside the extended reals, the tiling of the edges -/

theorem oh_true_mul {p : Prop} [Decidable p] (hp : p) (t : EReal) : oh p * t = t := by
  unfold oh; rw [if_pos hp, one_mul]

theorem oh_false_mul {p : Prop} [Decidable p] (hp : ¬ p) (t : EReal) : oh p * t = 0 := by
  unfold oh; rw [if_neg hp, zero_mul]

theorem oh_mul {p : Prop} [Decidable p] (t : EReal) : oh p * t = if p then t else 0 := by
  by_cases hp : p
  · rw [oh_true_mul hp, if_pos hp]
  · rw [oh_false_mul hp, if_neg hp]

/-- The coercion of the reals into the extended reals commutes with finite sums. -/
theorem coe_finset_sum {ι : Type*} (S : Finset ι) (f : ι → ℝ) :
    ((∑ i ∈ S, f i : ℝ) : EReal) = ∑ i ∈ S, (f i : EReal) := by
  classical
  refine Finset.induction_on S (by simp) ?_
  intro a S ha ih
  rw [Finset.sum_insert ha, Finset.sum_insert ha, EReal.coe_add, ih]

/-- For real terms and a real factor, the factor moves out of a finite sum. -/
theorem sum_coe_mul_coe {ι : Type*} (S : Finset ι) (f : ι → ℝ) (w : ℝ) :
    ∑ i ∈ S, (f i : EReal) * (w : EReal) = (∑ i ∈ S, (f i : EReal)) * (w : EReal) := by
  rw [← coe_finset_sum, ← EReal.coe_mul, Finset.sum_mul, coe_finset_sum]
  exact Finset.sum_congr rfl fun i _ => (EReal.coe_mul _ _).symm

/-- A 32-bit word is the word of a number below 2^31 exactly when its signed value is that number. -/
theorem eq_ofNat_iff_toInt (v : BitVec 32) (n : ℕ) (hn : n < 10000) :
    v = BitVec.ofNat 32 n ↔ v.toInt = (n : ℤ) := by
  have hv := v.isLt
  constructor
  · intro h
    have h1 : v.toNat = n := by rw [h, BitVec.toNat_ofNat]; exact Nat.mod_eq_of_lt (by omega)
    rw [BitVec.toInt_eq_toNat_cond, h1]
    split <;> omega
  · intro h
    rw [BitVec.toInt_eq_toNat_cond] at h
    apply BitVec.eq_of_toNat_eq
    rw [BitVec.toNat_ofNat, Nat.mod_eq_of_lt (by omega)]
    split at h <;> omega

/-- Words of two numbers below 2^32 agree only if the numbers agree. -/
theorem ofNat_inj_small {a b : ℕ} (ha : a < 10112) (hb : b < 10112)
    (h : BitVec.ofNat 32 a = BitVec.ofNat 32 b) : a = b := by
  have h1 := congrArg BitVec.toNat h
  rw [BitVec.toNat_ofNat, BitVec.toNat_ofNat, Nat.mod_eq_of_lt (by omega), Nat.mod_eq_of_lt (by omega)] at h1
  exact h1

/-- Edges are pairs (block, place in the block). -/
def edgeEquiv : Fin 1250 × Fin 512 ≃ Fin 640000 where
  toFun p := edge p.1 p.2
  invFun e := (⟨e.val / 512, by have := e.isLt; omega⟩, ⟨e.val % 512, by omega⟩)
  left_inv p := by
    obtain ⟨B, e'⟩ := p
    have := B.isLt; have := e'.isLt
    apply Prod.ext <;> apply Fin.ext <;> simp only [edge] <;> omega
  right_inv e := by
    apply Fin.ext; simp only [edge]; omega

/-- Blocks are pairs (core, place in the core's run). -/
def blockEquiv : Fin 2 × Fin 625 ≃ Fin 1250 where
  toFun p := blockOf p.1 p.2.val p.2.isLt
  invFun B := (⟨B.val / 625, by have := B.isLt; omega⟩, ⟨B.val % 625, by omega⟩)
  left_inv p := by
    obtain ⟨c, i⟩ := p
    have := c.isLt; have := i.isLt
    apply Prod.ext <;> apply Fin.ext <;> simp only [blockOf] <;> omega
  right_inv B := by
    apply Fin.ext; simp only [blockOf]; omega

/-- A sum over all edges, block by block. -/
theorem sum_edges {M : Type*} [AddCommMonoid M] (f : Fin 640000 → M) :
    ∑ e, f e = ∑ B : Fin 1250, ∑ e' : Fin 512, f (edge B e') := by
  rw [← Equiv.sum_comp edgeEquiv f, Fintype.sum_prod_type]
  rfl

/-- A sum over all blocks, core by core. -/
theorem sum_blocks {M : Type*} [AddCommMonoid M] (g : Fin 1250 → M) :
    ∑ B, g B = ∑ c : Fin 2, ∑ i : Fin 625, g (blockOf c i.val i.isLt) := by
  rw [← Equiv.sum_comp blockEquiv g, Fintype.sum_prod_type]
  rfl

variable (x : (⟨2, ![10000, 128]⟩ : Shape).Idx → EReal) (src dst : Fin 640000 → BitVec 32)
  (W : (⟨2, ![128, 128]⟩ : Shape).Idx → EReal) (b : (⟨1, ![128]⟩ : Shape).Idx → EReal)

/-- The transformed node table, padded with zero rows: row n' of x times W transposed for a node, 0 past the nodes. -/
def XW (n' : Fin 10112) (o : Fin 128) : EReal :=
  if h : n'.val < 10000 then ∑ k : Fin 128, x (ix2 (⟨n'.val, h⟩ : Fin 10000) k) * W (ix2 o k) else 0

/-- What one block of 512 edges adds to row n, column o: over the block's edges whose destination word is n, the
    table row picked by the edge's source word. -/
def Contrib (B : Fin 1250) (n : Fin 10112) (o : Fin 128) : EReal :=
  ∑ e' : Fin 512, oh (dst (edge B e') = BitVec.ofNat 32 n.val)
    * ∑ n' : Fin 10112, oh (src (edge B e') = BitVec.ofNat 32 n'.val) * XW x W n' o

/-- Core c's running total after its block i: zero plus the first block, then one block at a time. -/
def Acc (c : Fin 2) : (i : ℕ) → i < 625 → Fin 10112 → Fin 128 → EReal
  | 0, h => fun n o => 0 + Contrib x src dst W (blockOf c 0 h) n o
  | i + 1, h => fun n o => Acc c i (Nat.lt_of_succ_lt h) n o + Contrib x src dst W (blockOf c (i + 1) h) n o

/-- The kernel's result: the two cores' totals added, then the bias. -/
def Kform (n : Fin 10000) (o : Fin 128) : EReal :=
  (Acc x src dst W 0 624 (by decide) ⟨n.val, by have := n.isLt; omega⟩ o
    + Acc x src dst W 1 624 (by decide) ⟨n.val, by have := n.isLt; omega⟩ o) + b (ix1 o)

/-- The reference's result, with the source node of each edge given as a node `s e`. -/
def Rform (s : Fin 640000 → Fin 10000) (n : Fin 10000) (o : Fin 128) : EReal :=
  (∑ k : Fin 128, (0 + ∑ e ∈ Finset.univ.filter (fun e : Fin 640000 => (dst e).toInt = (n.val : ℤ)), x (ix2 (s e) k))
      * W (ix2 o k)) + b (ix1 o)

/-! ### The kernel's form, unrolled -/

/-- A core's running total after block i is the plain sum of its first i + 1 blocks. -/
theorem acc_eq_sum (c : Fin 2) : ∀ (i : ℕ) (h : i < 625) (n : Fin 10112) (o : Fin 128),
    Acc x src dst W c i h n o
      = ∑ i' : Fin (i + 1), Contrib x src dst W (blockOf c i'.val (by have := i'.isLt; omega)) n o := by
  intro i
  induction i with
  | zero =>
    intro h n o
    rw [Fin.sum_univ_one]
    simp only [Acc, zero_add]
    rfl
  | succ i ih =>
    intro h n o
    rw [Fin.sum_univ_castSucc]
    simp only [Acc]
    rw [ih (Nat.lt_of_succ_lt h) n o]
    rfl

/-- The two cores' totals together are one sum over all edges. -/
theorem acc_total (n : Fin 10112) (o : Fin 128) :
    Acc x src dst W 0 624 (by decide) n o + Acc x src dst W 1 624 (by decide) n o
      = ∑ e : Fin 640000, oh (dst e = BitVec.ofNat 32 n.val)
          * ∑ m : Fin 10112, oh (src e = BitVec.ofNat 32 m.val) * XW x W m o := by
  rw [acc_eq_sum, acc_eq_sum, sum_edges, sum_blocks, Fin.sum_univ_two]
  rfl

/-- The one-hot sum over the table's rows picks the row of the edge's source node. -/
theorem pick_row (s : Fin 640000 → Fin 10000) (hs : ∀ e, src e = BitVec.ofNat 32 (s e).val)
    (e : Fin 640000) (o : Fin 128) :
    ∑ m : Fin 10112, oh (src e = BitVec.ofNat 32 m.val) * XW x W m o
      = ∑ k : Fin 128, x (ix2 (s e) k) * W (ix2 o k) := by
  have hse := (s e).isLt
  rw [Finset.sum_eq_single (⟨(s e).val, by omega⟩ : Fin 10112)]
  · rw [oh_true_mul (hs e)]
    unfold XW
    rw [dif_pos hse]
  · intro m _ hm
    apply oh_false_mul
    intro h
    apply hm
    apply Fin.ext
    rw [hs e] at h
    exact (ofNat_inj_small (by omega) m.isLt h).symm
  · intro h
    exact absurd (Finset.mem_univ _) h

/-- Multiplying before or after the sum over edges gives the same result, when every feature and weight is a real
    number and every source word is the node `s e`. -/
theorem kform_eq_rform (s : Fin 640000 → Fin 10000)
    (hx : ∀ j, ∃ r : ℝ, x j = (r : EReal)) (hW : ∀ j, ∃ r : ℝ, W j = (r : EReal))
    (hs : ∀ e, src e = BitVec.ofNat 32 (s e).val) (n : Fin 10000) (o : Fin 128) :
    Kform x src dst W b n o = Rform x dst W b s n o := by
  obtain ⟨xr, hxr⟩ : ∃ xr : (⟨2, ![10000, 128]⟩ : Shape).Idx → ℝ, ∀ j, x j = (xr j : EReal) :=
    ⟨fun j => (hx j).choose, fun j => (hx j).choose_spec⟩
  obtain ⟨Wr, hWr⟩ : ∃ Wr : (⟨2, ![128, 128]⟩ : Shape).Idx → ℝ, ∀ j, W j = (Wr j : EReal) :=
    ⟨fun j => (hW j).choose, fun j => (hW j).choose_spec⟩
  have hn := n.isLt
  unfold Kform Rform
  refine congrArg (· + b (ix1 o)) ?_
  calc _ = ∑ e : Fin 640000, oh (dst e = BitVec.ofNat 32 n.val)
              * ∑ k : Fin 128, x (ix2 (s e) k) * W (ix2 o k) := by
        rw [acc_total]
        exact Finset.sum_congr rfl fun e _ => by rw [pick_row x src W s hs e o]
    _ = ∑ e ∈ Finset.univ.filter (fun e : Fin 640000 => (dst e).toInt = (n.val : ℤ)),
            ∑ k : Fin 128, x (ix2 (s e) k) * W (ix2 o k) := by
        rw [Finset.sum_filter]
        refine Finset.sum_congr rfl fun e _ => ?_
        rw [oh_mul]
        exact if_congr (eq_ofNat_iff_toInt (dst e) n.val hn) rfl rfl
    _ = ∑ k : Fin 128, ∑ e ∈ Finset.univ.filter (fun e : Fin 640000 => (dst e).toInt = (n.val : ℤ)),
            x (ix2 (s e) k) * W (ix2 o k) := Finset.sum_comm
    _ = _ := by
        refine Finset.sum_congr rfl fun k _ => ?_
        rw [zero_add]
        simp only [hxr, hWr]
        exact sum_coe_mul_coe _ _ _

end Cert.Spec

end
-- ==== Proof.LibDotNT.lean ====
/-
  A matrix times a transposed matrix, read at an index.

  For the dimension numbers of an M × K by N × K product that contracts the LAST axis of both operands (no batch
  axis: x · Wᵀ with W stored row by row), the sum over the contraction index that a matmul into a zero accumulator
  or a dot_general denotes at the ideal values is, at row p and column q, the sum over k of l (p, k) · r (q, k).
  General in M, K, N; a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.DotNT

open Idealize.ShloMosaic Idealize.ShloMosaic.ValueIdx

variable {M K N : Nat}

/-- The dimension numbers: contract axis 1 of both operands; the result's axes are the left rows, then the right rows. -/
abbrev dims (w : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ := ⟨[1], [1], [0], [0], [], [], w⟩

variable (w : DotDims.WF (⟨2, ![M, K]⟩ : Shape) ⟨2, ![N, K]⟩ ⟨2, ![M, N]⟩ [1] [1] [0] [0] [] [])

theorem contr_rank : (dims w).contr.rank = 1 := rfl
theorem contr_size : (dims w).contr.size ⟨0, by rw [contr_rank]; exact Nat.one_pos⟩ = K := rfl

/-- The contraction index is its one coordinate, a column of either operand. -/
abbrev kEquiv : (dims w).contr.Idx ≃ Fin K := contrEquiv1 (dims w) K (contr_rank w) (contr_size w)

/-- The left operand is read at (row of the result, k). -/
theorem lhsIdx_eq (j : (⟨2, ![M, N]⟩ : Shape).Idx) (k : Fin K) :
    (dims w).lhsIdx j ((kEquiv w).symm k) = ix2 (j 0) k := by
  funext a
  apply Fin.ext
  match a with
  | ⟨0, _⟩ => rfl
  | ⟨1, _⟩ =>
    exact ((dims w).lhsIdx_val_of_single (cl := 1) rfl j _).trans
      (contrEquiv1_symm_val (dims w) K (contr_rank w) (contr_size w) k)

/-- The right operand is read at (column of the result, k): its rows are the result's columns. -/
theorem rhsIdx_eq (j : (⟨2, ![M, N]⟩ : Shape).Idx) (k : Fin K) :
    (dims w).rhsIdx j ((kEquiv w).symm k) = ix2 (j 1) k := by
  funext a
  apply Fin.ext
  match a with
  | ⟨0, _⟩ => rfl
  | ⟨1, _⟩ =>
    exact ((dims w).rhsIdx_val_of_single (cr := 1) rfl j _).trans
      (contrEquiv1_symm_val (dims w) K (contr_rank w) (contr_size w) k)

/-- The contraction sum, over the shared column index. -/
theorem sum_eq (l : (⟨2, ![M, K]⟩ : Shape).Idx → EReal) (r : (⟨2, ![N, K]⟩ : Shape).Idx → EReal) (j : (⟨2, ![M, N]⟩ : Shape).Idx) :
    (∑ kk : (dims w).contr.Idx, l ((dims w).lhsIdx j kk) * r ((dims w).rhsIdx j kk))
      = ∑ k : Fin K, l (ix2 (j 0) k) * r (ix2 (j 1) k) := by
  rw [← Equiv.sum_comp (kEquiv w).symm]
  exact Finset.sum_congr rfl fun k _ =>
    congrArg₂ (· * ·) (congrArg l (lhsIdx_eq w j k)) (congrArg r (rhsIdx_eq w j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![N, K]⟩ φ₂)
    (p : Fin M) (q : Fin N) :
    matmul (dims w) prec l r (constant ⟨2, ![M, N]⟩ .f32 0x00000000#32) (ix2 p q)
      = ∑ k : Fin K, l (ix2 p k) * r (ix2 q k) :=
  (Ideal.matmul_constant_zero_apply (dims w) prec l r (ix2 p q)).trans (sum_eq w l r (ix2 p q))

/-- The host's dot_general, at (p, q). -/
theorem dotGeneral_apply (prec : Option ContractPrecision) (l : FVec Ideal ⟨2, ![M, K]⟩ φ₁) (r : FVec Ideal ⟨2, ![N, K]⟩ φ₂)
    (p : Fin M) (q : Fin N) :
    Host.dotGeneral (dims w) prec l r (ix2 p q) = ∑ k : Fin K, l (ix2 p k) * r (ix2 q k) :=
  (Ideal.dotGeneral_apply (dims w) prec _ l r (ix2 p q)).trans (sum_eq w l r (ix2 p q))

end Idealize.ShloMosaic.DotNT

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.LibDotTN.lean ====
/-
  A transposed matrix times a matrix, read at an index.

  For the dimension numbers of a K × M by K × N product that contracts the FIRST axis of both operands (no batch
  axis: lᵀ · r, both operands stored with the contracted index as their row), the sum over the contraction index that
  a matmul into a zero accumulator or a dot_general denotes at the ideal values is, at row p and column q, the sum
  over k of l (k, p) · r (k, q). General in M, K, N; a program's own record of these dimension numbers is this one up
  to its proof field.
-/
import Idealize.ShloMosaic.PureOps.Ideal
import Idealize.ShloMosaic.PureOps.Ideal.Laws
import Idealize.ShloMosaic.Lib.ValueIdx

noncomputable section

namespace Idealize.ShloMosaic.DotTN

open Idealize.ShloMosaic Idealize.ShloMosaic.ValueIdx

variable {M K N : Nat}

/-- The dimension numbers: contract axis 0 of both operands; the result's axes are the left columns, then the right columns. -/
abbrev dims (w : DotDims.WF (⟨2, ![K, M]⟩ : Shape) ⟨2, ![K, N]⟩ ⟨2, ![M, N]⟩ [0] [0] [1] [1] [] []) :
    DotDims (⟨2, ![K, M]⟩ : Shape) ⟨2, ![K, N]⟩ ⟨2, ![M, N]⟩ := ⟨[0], [0], [1], [1], [], [], w⟩

variable (w : DotDims.WF (⟨2, ![K, M]⟩ : Shape) ⟨2, ![K, N]⟩ ⟨2, ![M, N]⟩ [0] [0] [1] [1] [] [])

theorem contr_rank : (dims w).contr.rank = 1 := rfl
theorem contr_size : (dims w).contr.size ⟨0, by rw [contr_rank]; exact Nat.one_pos⟩ = K := rfl

/-- The contraction index is its one coordinate, a row of either operand. -/
abbrev kEquiv : (dims w).contr.Idx ≃ Fin K := contrEquiv1 (dims w) K (contr_rank w) (contr_size w)

/-- The left operand is read at (k, row of the result): its columns are the result's rows. -/
theorem lhsIdx_eq (j : (⟨2, ![M, N]⟩ : Shape).Idx) (k : Fin K) :
    (dims w).lhsIdx j ((kEquiv w).symm k) = ix2 k (j 0) := by
  funext a
  apply Fin.ext
  match a with
  | ⟨0, _⟩ =>
    exact ((dims w).lhsIdx_val_of_single (cl := 0) rfl j _).trans
      (contrEquiv1_symm_val (dims w) K (contr_rank w) (contr_size w) k)
  | ⟨1, _⟩ => rfl

/-- The right operand is read at (k, column of the result). -/
theorem rhsIdx_eq (j : (⟨2, ![M, N]⟩ : Shape).Idx) (k : Fin K) :
    (dims w).rhsIdx j ((kEquiv w).symm k) = ix2 k (j 1) := by
  funext a
  apply Fin.ext
  match a with
  | ⟨0, _⟩ =>
    exact ((dims w).rhsIdx_val_of_single (cr := 0) rfl j _).trans
      (contrEquiv1_symm_val (dims w) K (contr_rank w) (contr_size w) k)
  | ⟨1, _⟩ => rfl

/-- The contraction sum, over the shared row index. -/
theorem sum_eq (l : (⟨2, ![K, M]⟩ : Shape).Idx → EReal) (r : (⟨2, ![K, N]⟩ : Shape).Idx → EReal) (j : (⟨2, ![M, N]⟩ : Shape).Idx) :
    (∑ kk : (dims w).contr.Idx, l ((dims w).lhsIdx j kk) * r ((dims w).rhsIdx j kk))
      = ∑ k : Fin K, l (ix2 k (j 0)) * r (ix2 k (j 1)) := by
  rw [← Equiv.sum_comp (kEquiv w).symm]
  exact Finset.sum_congr rfl fun k _ =>
    congrArg₂ (· * ·) (congrArg l (lhsIdx_eq w j k)) (congrArg r (rhsIdx_eq w j k))

variable {φ₁ φ₂ : FTy}

/-- A kernel's matmul into the zero accumulator, at (p, q). -/
theorem matmul_zero_apply (prec : Option ContractPrecision) (l : FVec Ideal ⟨2, ![K, M]⟩ φ₁) (r : FVec Ideal ⟨2, ![K, N]⟩ φ₂)
    (p : Fin M) (q : Fin N) :
    matmul (dims w) prec l r (constant ⟨2, ![M, N]⟩ .f32 0x00000000#32) (ix2 p q)
      = ∑ k : Fin K, l (ix2 k p) * r (ix2 k q) :=
  (Ideal.matmul_constant_zero_apply (dims w) prec l r (ix2 p q)).trans (sum_eq w l r (ix2 p q))

/-- The host's dot_general, at (p, q). -/
theorem dotGeneral_apply (prec : Option ContractPrecision) (l : FVec Ideal ⟨2, ![K, M]⟩ φ₁) (r : FVec Ideal ⟨2, ![K, N]⟩ φ₂)
    (p : Fin M) (q : Fin N) :
    Host.dotGeneral (dims w) prec l r (ix2 p q) = ∑ k : Fin K, l (ix2 k p) * r (ix2 k q) :=
  (Ideal.dotGeneral_apply (dims w) prec _ l r (ix2 p q)).trans (sum_eq w l r (ix2 p q))

end Idealize.ShloMosaic.DotTN

end
-- ==== Proof.PayVal.lean ====
/-
  The kernel's arithmetic read at an index, at the ideal values.

  Each value the two kernel functions store is, entry by entry, a closed expression in the values they loaded:
  the first function stores the product x · Wᵀ (row n, column o: the sum over k of x (n, k) · W (o, k)) and zero rows
  below it; the second stores zero on its first visit and afterwards the loaded running total plus the block's
  contribution: over the block's 512 edges, one where the edge's destination word is the row's number, times the
  table row the edge's source word selects (a second sum of ones and zeros over the table's 10112 rows). Format
  changes are the identity at the ideal values, a shape cast to the same shape is the identity, the compare / widen /
  convert chain of a one-hot matrix is 1 or 0, and the three matrix products are read by their dimension numbers.
-/
import proofs.«401872_j33182917328985_3_alg».proof.Proof.Gen.KernelIdeal.Skeleton
import proofs.«401872_j33182917328985_3_alg».proof.Proof.Spec
import proofs.«401872_j33182917328985_3_alg».proof.Proof.LibDotNT
import proofs.«401872_j33182917328985_3_alg».proof.Proof.LibPlainDot
import proofs.«401872_j33182917328985_3_alg».proof.Proof.LibDotTN
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.PayVal

open Cert.KernelIdeal Cert.KernelIdeal.Gen Idealize.ShloMosaic Idealize.ShloMosaic.ValueIdx

/-! ### Two general readings -/

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bit of a comparison for equality, widened to a word and read as a signed integer, is the real 1 or 0. -/
theorem sitofp_extui_cmpi_eq (a b : BitVec 32) :
    (((((IntOp.cmpi .eq a b).setWidth 32).toInt : ℝ)) : EReal) = Cert.Spec.oh (a = b) := by
  unfold Cert.Spec.oh
  by_cases h : a = b
  · subst h
    rw [if_pos rfl]
    simp [IntOp.cmpi]
  · rw [if_neg h]
    have : (a == b) = false := by simpa using h
    simp [IntOp.cmpi, this]

/-! ### The first function's two stored values -/

theorem k0_pay1_apply (v0 : Vec Ideal S10000x128 .f32) (v2 : Vec Ideal S128x128 .f32) (n : Fin 10000) (o : Fin 128) :
    k0_pay1 (F := Ideal) v0 v2 (ix2 n o) = ∑ k : Fin 128, v0 (ix2 n k) * v2 (ix2 o k) :=
  DotNT.matmul_zero_apply (M := 10000) (K := 128) (N := 128)
    dot_S10000x128_S128x128_S10000x128_1_1_0_0_n_n.wf none (φ₁ := .bf16) (φ₂ := .bf16) v0 v2 n o

theorem k0_pay2_apply (j : S112x128.Idx) : k0_pay2 (F := Ideal) j = 0 :=
  Ideal.ofBits_zero_bf16

/-! ### The second function's three stored values -/

theorem k1_pay1_apply (j : S10112x128.Idx) : k1_pay1 (F := Ideal) j = 0 := by
  show shapeCast S10112x128 (broadcast S10112x128 (Scalar.ofBits (F := Ideal) .f32 0x00000000#32))
    shapeCasts_S10112x128_S10112x128 j = 0
  rw [shapeCast_self]
  exact Ideal.ofBits_zero_f32

theorem k1_pay3_apply (v33 : Vec Ideal S10112x128 .f32) (n : Fin 10112) (d : Fin 128) :
    k1_pay3 (F := Ideal) v33 (ix3 (0 : Fin 1) n d) = v33 (ix2 n d) :=
  shapeCast_ab_1ab_apply v33 shapeCasts_S10112x128_S1x10112x128 0 n d

/-- The one-hot matrix of a column of 512 words against the row of the numbers 0 … 10111: the program's chain of
    shape cast, iota, two broadcasts, compare, widen, convert and format change. -/
abbrev onehot (v : Vec Ideal S512x1 .i32) : FVec Ideal S512x10112 .bf16 :=
  truncf .bf16 (sitofp .f32 (extui 32 (cmpi .eq
    (broadcastTo S512x10112 (shapeCast S512x1 v shapeCasts_S512x1_S512x1) broadcasts_S512x1_S512x10112)
    (broadcastTo S512x10112 (iota .tc S1x10112 32 [1] iota_S1x10112_d1_w32) broadcasts_S1x10112_S512x10112))
    natLt_1_32)) bitsLt_bf16_f32

/-- Its entry at (e', m) is 1 where the e'-th word is the word of m, else 0. -/
theorem onehot_apply (v : Vec Ideal S512x1 .i32) (e' : Fin 512) (m : Fin 10112) :
    onehot v (ix2 e' m) = Cert.Spec.oh (v (ix2 e' (0 : Fin 1)) = BitVec.ofNat 32 m.val) := by
  have h1 : broadcastTo S512x10112 (shapeCast S512x1 v shapeCasts_S512x1_S512x1) broadcasts_S512x1_S512x10112 (ix2 e' m)
      = v (ix2 e' (0 : Fin 1)) := by
    rw [broadcastTo_a1_ab_apply, shapeCast_self]
  have h2 : broadcastTo S512x10112 (iota .tc S1x10112 32 [1] iota_S1x10112_d1_w32) broadcasts_S1x10112_S512x10112 (ix2 e' m)
      = BitVec.ofNat 32 m.val := by
    rw [broadcastTo_1b_ab_apply, iota_single_apply]
  show (((((IntOp.cmpi .eq
      (broadcastTo S512x10112 (shapeCast S512x1 v shapeCasts_S512x1_S512x1) broadcasts_S512x1_S512x10112 (ix2 e' m))
      (broadcastTo S512x10112 (iota .tc S1x10112 32 [1] iota_S1x10112_d1_w32) broadcasts_S1x10112_S512x10112 (ix2 e' m))).setWidth 32).toInt : ℝ)) : EReal) = _
  rw [h1, h2]
  exact sitofp_extui_cmpi_eq _ _

/-- The accumulating payload with its two one-hot matrices named. -/
theorem k1_pay2_eq (v3 v5 : Vec Ideal S512x1 .i32) (v14 : Vec Ideal S10112x128 .bf16) (v25 : Vec Ideal S10112x128 .f32) :
    k1_pay2 (F := Ideal) v3 v5 v14 v25
      = shapeCast S10112x128 (addf v25 (matmul dot_S512x10112_S512x128_S10112x128_0_0_1_1_n_n none (onehot v5)
          (truncf .bf16 (matmul (φ₂ := .bf16) dot_S512x10112_S10112x128_S512x128_1_0_0_1_n_n none (onehot v3)
            (shapeCast S10112x128 v14 shapeCasts_S10112x128_S10112x128 : FVec Ideal S10112x128 .bf16) (constant S512x128 .f32 0x00000000#32)) bitsLt_bf16_f32)
          (constant S10112x128 .f32 0x00000000#32))) shapeCasts_S10112x128_S10112x128 := rfl

/-- The rows gathered for a block: at (e', d), the table row the e'-th source word selects, as a sum of ones and zeros. -/
theorem gathered_apply (v3 : Vec Ideal S512x1 .i32) (v14 : Vec Ideal S10112x128 .bf16) (e' : Fin 512) (d : Fin 128) :
    matmul (φ₂ := .bf16) dot_S512x10112_S10112x128_S512x128_1_0_0_1_n_n none (onehot v3)
        (shapeCast S10112x128 v14 shapeCasts_S10112x128_S10112x128 : FVec Ideal S10112x128 .bf16) (constant S512x128 .f32 0x00000000#32) (ix2 e' d)
      = ∑ n' : Fin 10112, Cert.Spec.oh (v3 (ix2 e' (0 : Fin 1)) = BitVec.ofNat 32 n'.val) * v14 (ix2 n' d) := by
  have hd : dot_S512x10112_S10112x128_S512x128_1_0_0_1_n_n = DotDims.plain 512 10112 128 := rfl
  rw [hd, shapeCast_self]
  refine (PlainDot.matmul_zero_apply 512 10112 128 none (φ₁ := .bf16) (φ₂ := .bf16) (onehot v3) v14 e' d).trans ?_
  exact Finset.sum_congr rfl fun n' _ => by rw [onehot_apply]

theorem k1_pay2_apply (v3 v5 : Vec Ideal S512x1 .i32) (v14 : Vec Ideal S10112x128 .bf16) (v25 : Vec Ideal S10112x128 .f32)
    (n : Fin 10112) (d : Fin 128) :
    k1_pay2 (F := Ideal) v3 v5 v14 v25 (ix2 n d)
      = v25 (ix2 n d) + ∑ e' : Fin 512, Cert.Spec.oh (v5 (ix2 e' (0 : Fin 1)) = BitVec.ofNat 32 n.val)
          * ∑ n' : Fin 10112, Cert.Spec.oh (v3 (ix2 e' (0 : Fin 1)) = BitVec.ofNat 32 n'.val) * v14 (ix2 n' d) := by
  rw [k1_pay2_eq, shapeCast_self]
  refine congrArg (v25 (ix2 n d) + ·) ?_
  refine (DotTN.matmul_zero_apply (M := 10112) (K := 512) (N := 128)
    dot_S512x10112_S512x128_S10112x128_0_0_1_1_n_n.wf none (φ₁ := .bf16) (φ₂ := .bf16) (onehot v5) _ n d).trans ?_
  refine Finset.sum_congr rfl fun e' _ => ?_
  rw [onehot_apply]
  exact congrArg (_ * ·) (gathered_apply v3 v14 e' d)

end Cert.KernelIdeal.PayVal

end
-- ==== Proof.ValR0.lean ====
/- Region 0's value over the extended reals: after its one grid point the first kernel's output array is the
   transformed node table, padded with zero rows. -/
import proofs.«401872_j33182917328985_3_alg».proof.Proof.FI.R0
import proofs.«401872_j33182917328985_3_alg».proof.Proof.Spec
import proofs.«401872_j33182917328985_3_alg».proof.Proof.PayVal
import Idealize.ShloMosaic.Lib.Pipeline.Value
import Idealize.ShloMosaic.Lib.ValueIdx

set_option maxRecDepth 16384

noncomputable section

namespace Cert.KernelIdeal.ValR0

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## Every window's one block is its whole array -/

/-- The printed index maps, decided over the grid's one point: every window's block index is (0, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Window 0's block is the node features as the region finds them. -/
theorem iblk0_0_eq (c : Dev nD) (t : Fin cfg0.N) :
    (iblk0 V c 0 t : S10000x128.Idx → EReal) = V c main_arg0 := by
  obtain ⟨e0, e1, -, -, -, -⟩ := idx_facts t
  funext j
  show V c main_arg0 (((cfg0.win 0).blk t).view.emb j) = V c main_arg0 j
  refine congrArg _ ?_
  funext a; apply Fin.ext
  match a with
  | ⟨0, _⟩ => show win0_0.index t (0 : Fin 2) * 10000 + 1 * (j 0).val = (j 0).val; rw [e0]; omega
  | ⟨1, _⟩ => show win0_0.index t (1 : Fin 2) * 128 + 1 * (j 1).val = (j 1).val; rw [e1]; omega

/-- Window 1's block is the weights as the region finds them. -/
theorem iblk0_1_eq (c : Dev nD) (t : Fin cfg0.N) :
    (iblk0 V c 1 t : S128x128.Idx → EReal) = V c main_arg3 := by
  obtain ⟨-, -, e0, e1, -, -⟩ := idx_facts t
  funext j
  show V c main_arg3 (((cfg0.win 1).blk t).view.emb j) = V c main_arg3 j
  refine congrArg _ ?_
  funext a; apply Fin.ext
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-! ## From the one block to the array -/

/-- What the point writes back is the body's result on the whole arrays, read through the output's block. -/
theorem flushed_eq (c : Dev nD) (t : Fin cfg0.N) :
    (dat0 (F := Ideal) V c).flushed 2 t
      = ((cfg0.win 2).blk t).view.read (Elt Ideal) (out0_2 (F := Ideal) (V c main_arg0) (V c main_arg3)) := by
  show (cfg0.win 2).cut (grid0.coords t) ((dat0 V c).after 2 t) = _
  rw [after0_2, iblk0_0_eq, iblk0_1_eq]
  obtain ⟨-, -, -, -, e0, e1⟩ := idx_facts t
  funext j
  show out0_2 (F := Ideal) (V c main_arg0) (V c main_arg3) j
    = out0_2 (F := Ideal) (V c main_arg0) (V c main_arg3) (((cfg0.win 2).blk t).view.emb j)
  refine congrArg _ ?_
  funext a; apply Fin.ext
  match a with
  | ⟨0, _⟩ => show (j 0).val = win0_2.index t (0 : Fin 2) * 10112 + 1 * (j 0).val; rw [e0]; omega
  | ⟨1, _⟩ => show (j 1).val = win0_2.index t (1 : Fin 2) * 128 + 1 * (j 1).val; rw [e1]; omega

/-- An index of the array is in the point's block iff each coordinate is in the block's range on its axis. -/
theorem mem_blk (t : Fin cfg0.N) (i : S10112x128.Idx) :
    i ∈ ((cfg0.win 2).blk t).view.set ↔ ∀ a : Fin 2, win0_2.index t a * S10112x128.size a ≤ (i a).val ∧ (i a).val < win0_2.index t a * S10112x128.size a + S10112x128.size a := by
  show i ∈ ((View.whole main_v2).slice (win0_2.rect t)).set ↔ _
  rw [View.set_slice_whole, Rect.mem_set_unit]
  exact Iff.rfl

/-- Every index of the array is in the one point's block. -/
theorem cover (i : S10112x128.Idx) :
    ∃ t : Fin cfg0.N, (cfg0.win 2).flush t = true ∧ i ∈ ((cfg0.win 2).blk t).view.set := by
  refine ⟨t0_0, flush0_2 t0_0, ?_⟩
  rw [mem_blk]
  obtain ⟨-, -, -, -, e0, e1⟩ := idx_facts t0_0
  have hi0 : (i 0).val < 10112 := (i 0).isLt
  have hi1 : (i 1).val < 128 := (i 1).isLt
  intro a
  match a with
  | ⟨0, _⟩ => show win0_2.index t0_0 (0 : Fin 2) * 10112 ≤ (i 0).val ∧ (i 0).val < win0_2.index t0_0 (0 : Fin 2) * 10112 + 10112; rw [e0]; omega
  | ⟨1, _⟩ => show win0_2.index t0_0 (1 : Fin 2) * 128 ≤ (i 1).val ∧ (i 1).val < win0_2.index t0_0 (1 : Fin 2) * 128 + 128; rw [e1]; omega

/-- After the region the output array is the body's result on the whole input arrays. -/
theorem final (c : Dev nD) :
    (dat0 (F := Ideal) V c).arrAt 2 cfg0.N = out0_2 (F := Ideal) (V c main_arg0) (V c main_arg3) :=
  (dat0 (F := Ideal) V c).arrAt_eq_of_cover 2 (out0_2 (F := Ideal) (V c main_arg0) (V c main_arg3))
    (fun t _ => flushed_eq V c t) cover

/-! ## The array is the padded table -/

/-- A node's row of the body's result is that row of the features times the weights transposed. -/
theorem out_top (A : Vec Ideal S10000x128 .f32) (B : Vec Ideal S128x128 .f32) (p : Fin 10000) (o : Fin 128) :
    out0_2 (F := Ideal) A B (ix2 (⟨p.val, by have := p.isLt; omega⟩ : Fin 10112) o)
      = Cert.Spec.XW A B (⟨p.val, by have := p.isLt; omega⟩ : Fin 10112) o := by
  refine (out0_2_top (F := Ideal) A B p o).trans ?_
  rw [k0_pay1_apply]
  unfold Cert.Spec.XW
  rw [dif_pos (show (⟨p.val, _⟩ : Fin 10112).val < 10000 from p.isLt)]

/-- A padding row of the body's result is zero. -/
theorem out_bot (A : Vec Ideal S10000x128 .f32) (B : Vec Ideal S128x128 .f32) (p : Fin 112) (o : Fin 128) :
    out0_2 (F := Ideal) A B (ix2 (⟨10000 + p.val, by have := p.isLt; omega⟩ : Fin 10112) o)
      = Cert.Spec.XW A B (⟨10000 + p.val, by have := p.isLt; omega⟩ : Fin 10112) o := by
  refine (out0_2_bot (F := Ideal) A B p o).trans ?_
  rw [k0_pay2_apply]
  unfold Cert.Spec.XW
  rw [dif_neg (by show ¬ (10000 + p.val < 10000); omega)]

/-- After its one grid point the first kernel's output array is the transformed node table padded with zero rows. -/
theorem xw_eq (c : Dev nD) (n' : Fin 10112) (o : Fin 128) :
    ((Cert.KernelIdeal.Hand.dat0 (F := Ideal) V c).arrAt 2 cfg0.N : S10112x128.Idx → EReal) (ix2 n' o)
      = Cert.Spec.XW (V c main_arg0) (V c main_arg3) n' o := by
  rw [final]
  have hn := n'.isLt
  by_cases h : n'.val < 10000
  · exact out_top (V c main_arg0) (V c main_arg3) ⟨n'.val, h⟩ o
  · have e : n' = (⟨10000 + (n'.val - 10000), by omega⟩ : Fin 10112) := Fin.ext (by show n'.val = 10000 + (n'.val - 10000); omega)
    rw [e]
    exact out_bot (V c main_arg0) (V c main_arg3) ⟨n'.val - 10000, by omega⟩ o

end Cert.KernelIdeal.ValR0

end
-- ==== Proof.ValR1.lean ====
/-
  Region 1's value at the ideal instance: what the second kernel's output array holds after its 1250 grid points.

  The grid is 2 x 625: point t = 625 c + i is core c's i-th block of 512 edges.  At every point the body adds to a
  scratch total the block's contribution (a one-hot sum over the block's edges of a one-hot pick of a table row),
  starting from zero at i = 0; at i = 624 it copies the total into the output window, which is written back to
  block (c, 0, 0) of the [2, 10112, 128] output.  So the output at (c, n, o) is core c's total after its last block.
-/
import proofs.«401872_j33182917328985_3_alg».proof.Proof.FI.R1
import proofs.«401872_j33182917328985_3_alg».proof.Proof.Spec
import proofs.«401872_j33182917328985_3_alg».proof.Proof.PayVal
import Idealize.ShloMosaic.Lib.Pipeline.Value
import Idealize.ShloMosaic.Lib.ValueIdx

set_option maxRecDepth 16384

noncomputable section

namespace Cert.KernelIdeal.ValR1

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

/-- The grid has 1250 points. -/
theorem N1 : cfg1.N = 1250 := N_1

/-- The printed index maps over the grid: at point t the edge-column windows are at block (t, 0), the table window at
    block (0, 0), the output window at block (t / 625, 0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val / 625 ∧ win1_3.index t (1 : Fin 3) = 0 ∧ win1_3.index t (2 : Fin 3) = 0 :=
  (by decide +kernel : ∀ t : Fin grid1.N, _)

variable (V : (c : Dev nD) → (b : Ref sig .tc) → Buf (Elt Ideal) ((c : Thread nD τ).loc b))

/-- Point t as a block number. -/
def blockNo (t : Fin cfg1.N) : Fin 1250 := ⟨t.val, lt_of_lt_of_eq t.isLt N1⟩

/-- The source column's block at point t, entry e', is the column's entry at edge 512 t + e'. -/
theorem iblk1_0_apply (c : Dev nD) (t : Fin cfg1.N) (e' : Fin 512) :
    (iblk1 V c 0 t : S512x1.Idx → BitVec 32) (ix2 e' (0 : Fin 1))
      = (V c main_v0 : S640000x1.Idx → BitVec 32) (ix2 (Cert.Spec.edge (blockNo t) e') (0 : Fin 1)) := by
  obtain ⟨e0, e1, -⟩ := idx_facts t
  unfold iblk1
  rw [View.read_apply]
  show (V c main_v0 : S640000x1.Idx → BitVec 32) _ = _
  congr 1
  funext a
  apply Fin.ext
  match a with
  | ⟨0, _⟩ => show win1_0.index t (0 : Fin 2) * 512 + 1 * e'.val = 512 * t.val + e'.val; rw [e0]; omega
  | ⟨1, _⟩ => show win1_0.index t (1 : Fin 2) * 1 + 1 * 0 = 0; rw [e1]

/-- The destination column's block at point t, entry e', is the column's entry at edge 512 t + e'. -/
theorem iblk1_1_apply (c : Dev nD) (t : Fin cfg1.N) (e' : Fin 512) :
    (iblk1 V c 1 t : S512x1.Idx → BitVec 32) (ix2 e' (0 : Fin 1))
      = (V c main_v1 : S640000x1.Idx → BitVec 32) (ix2 (Cert.Spec.edge (blockNo t) e') (0 : Fin 1)) := by
  obtain ⟨-, -, e0, e1, -⟩ := idx_facts t
  unfold iblk1
  rw [View.read_apply]
  show (V c main_v1 : S640000x1.Idx → BitVec 32) _ = _
  congr 1
  funext a
  apply Fin.ext
  match a with
  | ⟨0, _⟩ => show win1_1.index t (0 : Fin 2) * 512 + 1 * e'.val = 512 * t.val + e'.val; rw [e0]; omega
  | ⟨1, _⟩ => show win1_1.index t (1 : Fin 2) * 1 + 1 * 0 = 0; rw [e1]

/-- The table's block at every point is the whole table. -/
theorem iblk1_2_apply (c : Dev nD) (t : Fin cfg1.N) (n' : Fin 10112) (d : Fin 128) :
    (iblk1 V c 2 t : S10112x128.Idx → EReal) (ix2 n' d)
      = (V c main_v2 : S10112x128.Idx → EReal) (ix2 n' d) := by
  obtain ⟨-, -, -, -, e0, e1, -⟩ := idx_facts t
  unfold iblk1
  rw [View.read_apply]
  show (V c main_v2 : S10112x128.Idx → EReal) _ = _
  congr 1
  funext a
  apply Fin.ext
  match a with
  | ⟨0, _⟩ => show win1_2.index t (0 : Fin 2) * 10112 + 1 * n'.val = n'.val; rw [e0]; omega
  | ⟨1, _⟩ => show win1_2.index t (1 : Fin 2) * 128 + 1 * d.val = d.val; rw [e1]; omega

/-- An index of the output array is in point t's block iff each coordinate is in the block's range on its axis. -/
theorem mem_blk3 (t : Fin cfg1.N) (i : S2x10112x128.Idx) :
    i ∈ ((cfg1.win 3).blk t).view.set ↔ ∀ a : Fin 3, win1_3.index t a * S1x10112x128.size a ≤ (i a).val ∧ (i a).val < win1_3.index t a * S1x10112x128.size a + S1x10112x128.size a := by
  show i ∈ ((View.whole main_v3).slice (win1_3.rect t)).set ↔ _
  rw [View.set_slice_whole, Rect.mem_set_unit]
  exact Iff.rfl

/-- The last point of core cc's run. -/
def lastPt (cc : Fin 2) : Fin cfg1.N := ⟨625 * cc.val + 624, by rw [N1]; have := cc.isLt; omega⟩

/-- Every index of the output array lies in the block of the last point of its core's run, which writes back. -/
theorem cover3 (i : S2x10112x128.Idx) :
    ∃ t : Fin cfg1.N, (cfg1.win 3).flush t = true ∧ i ∈ ((cfg1.win 3).blk t).view.set := by
  have h0 : (i 0).val < 2 := (i 0).isLt
  have h1 : (i 1).val < 10112 := (i 1).isLt
  have h2 : (i 2).val < 128 := (i 2).isLt
  refine ⟨lastPt (i 0), (flush1_3 _).mpr (by show (625 * (i 0).val + 624) % 625 = 624; omega), ?_⟩
  rw [mem_blk3]
  obtain ⟨-, -, -, -, -, -, e0, e1, e2⟩ := idx_facts (lastPt (i 0))
  have e0' : win1_3.index (lastPt (i 0)) (0 : Fin 3) = (i 0).val := by
    rw [e0]; show (625 * (i 0).val + 624) / 625 = (i 0).val; omega
  intro a
  match a with
  | ⟨0, _⟩ => show win1_3.index (lastPt (i 0)) (0 : Fin 3) * 1 ≤ (i 0).val ∧ (i 0).val < win1_3.index (lastPt (i 0)) (0 : Fin 3) * 1 + 1; rw [e0']; omega
  | ⟨1, _⟩ => show win1_3.index (lastPt (i 0)) (1 : Fin 3) * 10112 ≤ (i 1).val ∧ (i 1).val < win1_3.index (lastPt (i 0)) (1 : Fin 3) * 10112 + 10112; rw [e1]; omega
  | ⟨2, _⟩ => show win1_3.index (lastPt (i 0)) (2 : Fin 3) * 128 ≤ (i 2).val ∧ (i 2).val < win1_3.index (lastPt (i 0)) (2 : Fin 3) * 128 + 128; rw [e2]; omega

/-! ### The frame's case equations, component by component -/

section Cases

variable (c : Dev nD)

/-- At a core's first block the scratch ends at the update of the zero block. -/
theorem scrA (t : Fin cfg1.N) (h0 : t.val % 625 = 0) (h1 : ¬ t.val % 625 = 624) :
    (outsAt1 V c t.val t.isLt).2
      = k1_pay2 (F := Ideal) (iblk1 V c 0 t) (iblk1 V c 1 t) (iblk1 V c 2 t) (k1_pay1 (F := Ideal)) :=
  by rw [outsAt1_A V c t h0 h1, sout1_A_0_eq]

/-- At a middle block the scratch ends at the update of what the point before left. -/
theorem scrB (t : Fin cfg1.N) (h0 : ¬ t.val % 625 = 0) (h1 : ¬ t.val % 625 = 624) :
    (outsAt1 V c t.val t.isLt).2
      = k1_pay2 (F := Ideal) (iblk1 V c 0 t) (iblk1 V c 1 t) (iblk1 V c 2 t)
          (outsAt1 V c (t.val - 1) (Nat.lt_of_le_of_lt (Nat.sub_le _ _) t.isLt)).2 :=
  by rw [outsAt1_B V c t h0 h1, sout1_B_0_eq]

/-- At a core's last block the scratch ends at the update of what the point before left, -/
theorem scrC (t : Fin cfg1.N) (h0 : ¬ t.val % 625 = 0) (h1 : t.val % 625 = 624) :
    (outsAt1 V c t.val t.isLt).2
      = k1_pay2 (F := Ideal) (iblk1 V c 0 t) (iblk1 V c 1 t) (iblk1 V c 2 t)
          (outsAt1 V c (t.val - 1) (Nat.lt_of_le_of_lt (Nat.sub_le _ _) t.isLt)).2 :=
  by rw [outsAt1_C V c t h0 h1, sout1_C_0_eq]

/-- and the output window's buffer at that total with a leading unit axis. -/
theorem outC (t : Fin cfg1.N) (h0 : ¬ t.val % 625 = 0) (h1 : t.val % 625 = 624) :
    (outsAt1 V c t.val t.isLt).1
      = k1_pay3 (F := Ideal) (k1_pay2 (F := Ideal) (iblk1 V c 0 t) (iblk1 V c 1 t) (iblk1 V c 2 t)
          (outsAt1 V c (t.val - 1) (Nat.lt_of_le_of_lt (Nat.sub_le _ _) t.isLt)).2) :=
  by rw [outsAt1_C V c t h0 h1, out1_C_3_eq]

end Cases

/-! ### The running total -/

section Total

variable (x : (⟨2, ![10000, 128]⟩ : Shape).Idx → EReal) (W : (⟨2, ![128, 128]⟩ : Shape).Idx → EReal)

/-- The edges' source words and destination words: the two columns, entry by entry. -/
abbrev srcOf (c : Dev nD) : Fin 640000 → BitVec 32 := fun e => (V c main_v0 : S640000x1.Idx → BitVec 32) (ix2 e (0 : Fin 1))
abbrev dstOf (c : Dev nD) : Fin 640000 → BitVec 32 := fun e => (V c main_v1 : S640000x1.Idx → BitVec 32) (ix2 e (0 : Fin 1))

/-- The core whose run point t belongs to. -/
def coreOf (t : Fin cfg1.N) : Fin 2 := ⟨t.val / 625, by have := lt_of_lt_of_eq t.isLt N1; omega⟩

theorem mod_lt625 (k : ℕ) : k % 625 < 625 := Nat.mod_lt _ (by decide)

/-- Point t is its core's block number t mod 625. -/
theorem blockOf_eq (t : Fin cfg1.N) : Cert.Spec.blockOf (coreOf t) (t.val % 625) (mod_lt625 _) = blockNo t := by
  apply Fin.ext
  show 625 * (t.val / 625) + t.val % 625 = t.val
  omega

theorem Acc_first (src dst : Fin 640000 → BitVec 32) (cc : Fin 2) (i : ℕ) (h : i < 625) (hi : i = 0) (n : Fin 10112) (o : Fin 128) :
    Cert.Spec.Acc x src dst W cc i h n o = 0 + Cert.Spec.Contrib x src dst W (Cert.Spec.blockOf cc i h) n o := by
  subst hi; rfl

theorem Acc_next (src dst : Fin 640000 → BitVec 32) (cc : Fin 2) (i j : ℕ) (h : i < 625) (hj : j < 625) (hi : i = j + 1) (n : Fin 10112) (o : Fin 128) :
    Cert.Spec.Acc x src dst W cc i h n o
      = Cert.Spec.Acc x src dst W cc j hj n o + Cert.Spec.Contrib x src dst W (Cert.Spec.blockOf cc i h) n o := by
  subst hi; rfl

theorem Acc_congr (src dst : Fin 640000 → BitVec 32) {cc cc' : Fin 2} {i i' : ℕ} (h : i < 625) (h' : i' < 625) {n n' : Fin 10112} {o o' : Fin 128}
    (hc : cc = cc') (hi : i = i') (hn : n = n') (ho : o = o') :
    Cert.Spec.Acc x src dst W cc i h n o = Cert.Spec.Acc x src dst W cc' i' h' n' o' := by
  subst hc; subst hi; subst hn; subst ho; rfl

/-- One point's step: the total it finds plus its block's contribution. -/
theorem step_eq (c : Dev nD)
    (hT : ∀ (n' : Fin 10112) (o : Fin 128), (V c main_v2 : S10112x128.Idx → EReal) (ix2 n' o) = Cert.Spec.XW x W n' o)
    (t : Fin cfg1.N) (prev : Vec Ideal S10112x128 .f32) (n : Fin 10112) (o : Fin 128) :
    (k1_pay2 (F := Ideal) (iblk1 V c 0 t) (iblk1 V c 1 t) (iblk1 V c 2 t) prev : S10112x128.Idx → EReal) (ix2 n o)
      = (prev : S10112x128.Idx → EReal) (ix2 n o) + Cert.Spec.Contrib x (srcOf V c) (dstOf V c) W (blockNo t) n o := by
  rw [PayVal.k1_pay2_apply]
  unfold Cert.Spec.Contrib
  congr 1
  refine Finset.sum_congr rfl fun e' _ => ?_
  rw [iblk1_1_apply]
  congr 1
  refine Finset.sum_congr rfl fun n' _ => ?_
  rw [iblk1_0_apply, iblk1_2_apply, hT]

section Induction

variable (c : Dev nD)
variable (hT : ∀ (n' : Fin 10112) (o : Fin 128), (V c main_v2 : S10112x128.Idx → EReal) (ix2 n' o) = Cert.Spec.XW x W n' o)

include hT in
/-- THE INVARIANT: after point k the scratch holds its core's running total through block k mod 625. -/
theorem scratch_eq : ∀ (k : ℕ) (hk : k < cfg1.N) (n : Fin 10112) (o : Fin 128),
    ((outsAt1 V c k hk).2 : S10112x128.Idx → EReal) (ix2 n o)
      = Cert.Spec.Acc x (srcOf V c) (dstOf V c) W (coreOf ⟨k, hk⟩) (k % 625) (mod_lt625 k) n o := by
  intro k
  induction k using Nat.strong_induction_on with
  | _ k ih =>
    intro hk n o
    have hN : k < 1250 := lt_of_lt_of_eq hk N1
    by_cases h0 : k % 625 = 0
    · have h1 : ¬ k % 625 = 624 := by omega
      rw [scrA V c ⟨k, hk⟩ h0 h1, step_eq V x W c hT, PayVal.k1_pay1_apply,
        Acc_first x W _ _ _ _ _ h0, blockOf_eq]
    · have hk' : k - 1 < cfg1.N := Nat.lt_of_le_of_lt (Nat.sub_le _ _) hk
      have hprev := ih (k - 1) (by omega) hk' n o
      have hcore : coreOf ⟨k - 1, hk'⟩ = coreOf ⟨k, hk⟩ := by
        apply Fin.ext; show (k - 1) / 625 = k / 625; omega
      have hstep : k % 625 = (k - 1) % 625 + 1 := by omega
      have hS : (k1_pay2 (F := Ideal) (iblk1 V c 0 ⟨k, hk⟩) (iblk1 V c 1 ⟨k, hk⟩) (iblk1 V c 2 ⟨k, hk⟩) (outsAt1 V c (k - 1) hk').2 : S10112x128.Idx → EReal) (ix2 n o)
          = Cert.Spec.Acc x (srcOf V c) (dstOf V c) W (coreOf ⟨k, hk⟩) (k % 625) (mod_lt625 k) n o := by
        rw [step_eq V x W c hT, hprev, hcore,
          Acc_next x W _ _ _ (k % 625) ((k - 1) % 625) (mod_lt625 k) (mod_lt625 (k - 1)) hstep, blockOf_eq]
      by_cases h1 : k % 625 = 624
      · rw [scrC V c ⟨k, hk⟩ h0 h1]; exact hS
      · rw [scrB V c ⟨k, hk⟩ h0 h1]; exact hS

/-- What the output array ends holding: each core's total after its last block. -/
abbrev G : S2x10112x128.Idx → EReal :=
  fun j => Cert.Spec.Acc x (srcOf V c) (dstOf V c) W (j 0) 624 (by decide) (j 1) (j 2)

include hT in
/-- A point that writes back (the last of a core's run) writes its block of G. -/
theorem flushed_eq (t : Fin cfg1.N) (hf : (cfg1.win 3).flush t = true) :
    (dat1 (F := Ideal) V c).flushed 3 t = ((cfg1.win 3).blk t).view.read (Elt Ideal) (G V x W c) := by
  have h1 : t.val % 625 = 624 := (flush1_3 t).mp hf
  have h0 : ¬ t.val % 625 = 0 := by omega
  have hN : t.val < 1250 := lt_of_lt_of_eq t.isLt N1
  obtain ⟨-, -, -, -, -, -, e0, e1, e2⟩ := idx_facts t
  show (cfg1.win 3).cut (grid1.coords t) ((dat1 (F := Ideal) V c).after 3 t) = _
  rw [after1_3, outC V c t h0 h1, ← scrC V c t h0 h1]
  refine funext fun (j : S1x10112x128.Idx) => ?_
  rw [View.read_apply]
  have hj0 : (j 0).val = 0 := by have : (j 0).val < 1 := (j 0).isLt; omega
  obtain ⟨jn, hjn⟩ : ∃ jn : Fin 10112, jn = j 1 := ⟨j 1, rfl⟩
  obtain ⟨jo, hjo⟩ : ∃ jo : Fin 128, jo = j 2 := ⟨j 2, rfl⟩
  have hj : (cfg1.win 3).xinj (grid1.coords t) j = ix3 (0 : Fin 1) jn jo := by
    funext a
    match a with
    | ⟨0, _⟩ => exact Fin.ext hj0
    | ⟨1, _⟩ => exact hjn.symm
    | ⟨2, _⟩ => exact hjo.symm
  show k1_pay3 (F := Ideal) (outsAt1 V c t.val t.isLt).2 ((cfg1.win 3).xinj (grid1.coords t) j) = _
  rw [hj, PayVal.k1_pay3_apply, scratch_eq V x W c hT t.val t.isLt]
  show _ = Cert.Spec.Acc x (srcOf V c) (dstOf V c) W _ 624 _ _ _
  refine Acc_congr x W _ _ _ _ ?_ h1 ?_ ?_
  · apply Fin.ext
    show t.val / 625 = win1_3.index t (0 : Fin 3) * 1 + 1 * (j 0).val
    rw [e0, hj0]; omega
  · rw [hjn]
    apply Fin.ext
    show (j 1).val = win1_3.index t (1 : Fin 3) * 10112 + 1 * (j 1).val
    rw [e1]; omega
  · rw [hjo]
    apply Fin.ext
    show (j 2).val = win1_3.index t (2 : Fin 3) * 128 + 1 * (j 2).val
    rw [e2]; omega

include hT in
/-- THE OUTPUT ARRAY after the region's 1250 points. -/
theorem arrAt_eq : (dat1 (F := Ideal) V c).arrAt 3 cfg1.N = G V x W c :=
  (dat1 (F := Ideal) V c).arrAt_eq_of_cover 3 (G V x W c) (flushed_eq V x W c hT) cover3

end Induction

end Total

/-- REGION 1'S VALUE: after the 1250 points the output array holds, at (cc, n, o), core cc's total after its last
    block, when the table the region finds is the transformed node table. -/
theorem h_eq (V : (c : Dev nD) → (b : Ref sig .tc) → Buf (Elt Ideal) ((c : Thread nD τ).loc b)) (c : Dev nD)
    (x : (⟨2, ![10000, 128]⟩ : Shape).Idx → EReal) (W : (⟨2, ![128, 128]⟩ : Shape).Idx → EReal)
    (hT : ∀ (n' : Fin 10112) (o : Fin 128), (V c main_v2 : S10112x128.Idx → EReal) (ix2 n' o) = Cert.Spec.XW x W n' o)
    (cc : Fin 2) (n : Fin 10112) (o : Fin 128) :
    ((Cert.KernelIdeal.Hand.dat1 (F := Ideal) V c).arrAt 3 cfg1.N : S2x10112x128.Idx → EReal) (ix3 cc n o)
      = Cert.Spec.Acc x (fun e => (V c main_v0 : S640000x1.Idx → BitVec 32) (ix2 e (0 : Fin 1)))
          (fun e => (V c main_v1 : S640000x1.Idx → BitVec 32) (ix2 e (0 : Fin 1))) W cc 624 (by decide) n o := by
  exact congrFun (arrAt_eq V x W c hT) (ix3 cc n o)

end Cert.KernelIdeal.ValR1

end
-- ==== Proof.ValTail.lean ====
/-
  The host lines after the second kernel: the two cores' totals (the two slabs of the [2, 10112, 128] result) are
  added, the 112 padding rows are cut off, and the bias row is added to every node's row.  Read at (n, o):
      out(n, o) = (H(0, n, o) + H(1, n, o)) + b(o).
-/
import proofs.«401872_j33182917328985_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.KernelIdeal.ValTail

open Cert.KernelIdeal Cert.KernelIdeal.Gen
open Idealize.ShloMosaic Idealize.ShloMosaic.TcCoe Idealize.SL.Sem Idealize.ShloMosaic.StableHlo Idealize.ShloMosaic.ValueIdx

/-- The tail's nine operations composed: the result buffer as one term of the kernel's output and the bias. -/
def tailTerm (H : FVec Ideal S2x10112x128 .f32) (b : FVec Ideal S128 .f32) : FVec Ideal S10000x128 .f32 :=
  addf
    (extractStridedSlice S10000x128 ![0, 0]
      (addf
        (shapeCast S10112x128 (extractStridedSlice S1x10112x128 ![0, 0, 0] H slices_S2x10112x128_S1x10112x128_0_0_0)
          shapeCasts_S1x10112x128_S10112x128)
        (shapeCast S10112x128 (extractStridedSlice S1x10112x128 ![1, 0, 0] H slices_S2x10112x128_S1x10112x128_1_0_0)
          shapeCasts_S1x10112x128_S10112x128))
      slices_S10112x128_S10000x128_0_0)
    (broadcastInDim S10000x128 ![0, 1] bcast_S1x128_S10000x128_0_1 (shapeCast S1x128 b shapeCasts_S128_S1x128))

/-- After the tail, the result buffer holds `tailTerm` of the second kernel's output array and the bias array. -/
theorem tail_term (Wv : Valuation τ sig (Elt Ideal)) :
    StableHlo.after (hostOps2 (F := Ideal)) Wv (Proc.devRef .tc main_v12)
      = tailTerm (Wv (Proc.devRef .tc main_v3)) (Wv (Proc.devRef .tc main_arg4)) := by
  after_results
  rfl

/-- One slab of the output, its unit axis dropped, read at (r, o). -/
theorem slab_apply (H : FVec Ideal S2x10112x128 .f32) (r : Fin 10112) (o : Fin 128) :
    shapeCast S10112x128 (extractStridedSlice S1x10112x128 ![0, 0, 0] H slices_S2x10112x128_S1x10112x128_0_0_0)
        shapeCasts_S1x10112x128_S10112x128 (ix2 r o) = H (ix3 (0 : Fin 2) r o)
    ∧ shapeCast S10112x128 (extractStridedSlice S1x10112x128 ![1, 0, 0] H slices_S2x10112x128_S1x10112x128_1_0_0)
        shapeCasts_S1x10112x128_S10112x128 (ix2 r o) = H (ix3 (1 : Fin 2) r o) := by
  constructor
  · rw [shapeCast_dropUnit_apply ![10112, 128]]
    refine extractStridedSlice_apply _ _ _ _ (ix3 (0 : Fin 2) r o) fun a => ?_
    match a with
    | ⟨0, _⟩ => rfl
    | ⟨1, _⟩ => exact (Nat.zero_add _).symm
    | ⟨2, _⟩ => exact (Nat.zero_add _).symm
  · rw [shapeCast_dropUnit_apply ![10112, 128]]
    refine extractStridedSlice_apply _ _ _ _ (ix3 (1 : Fin 2) r o) fun a => ?_
    match a with
    | ⟨0, _⟩ => rfl
    | ⟨1, _⟩ => exact (Nat.zero_add _).symm
    | ⟨2, _⟩ => exact (Nat.zero_add _).symm

/-- The tail at (n, o): the two slabs' entries added, plus the bias's entry. -/
theorem tailTerm_apply (H : FVec Ideal S2x10112x128 .f32) (b : FVec Ideal S128 .f32) (n : Fin 10000) (o : Fin 128) :
    tailTerm H b (ix2 n o)
      = (H (ix3 (0 : Fin 2) (⟨n.val, by have := n.isLt; omega⟩ : Fin 10112) o)
          + H (ix3 (1 : Fin 2) (⟨n.val, by have := n.isLt; omega⟩ : Fin 10112) o)) + b (ix1 o) := by
  unfold tailTerm
  rw [addf_apply]
  congr 1
  · rw [extractStridedSlice_apply ![0, 0] _ slices_S10112x128_S10000x128_0_0 (ix2 n o)
        (ix2 (⟨n.val, by have := n.isLt; omega⟩ : Fin 10112) o)
        (fun a => by match a with | ⟨0, _⟩ => simp | ⟨1, _⟩ => simp)]
    rw [addf_apply, (slab_apply H _ o).1, (slab_apply H _ o).2]
  · rw [broadcastInDim_apply ![0, 1] bcast_S1x128_S10000x128_0_1 _ (ix2 n o) (ix2 (0 : Fin 1) o)
        (fun a => by match a with | ⟨0, _⟩ => simp | ⟨1, _⟩ => simp)]
    rw [shapeCast_addUnit_apply ![128]]
    exact congrArg b (funext fun a => by match a with | ⟨0, _⟩ => rfl)

end Cert.KernelIdeal.ValTail

end
-- ==== Proof.ValHead.lean ====
/-
  The host lines before the kernels: the two edge-index arrays are laid out as [640000, 1] columns.  A column's
  entry (e, 0) is the flat array's entry e, and nothing else is touched.
-/
import proofs.«401872_j33182917328985_3_alg».proof.Proof.Gen.KernelIdeal.Launch
import Idealize.ShloMosaic.Lib.StableHlo.Run
import Idealize.ShloMosaic.Lib.ValueIdx
import Idealize.ShloMosaic.Lib.Pipeline.Value

noncomputable section

namespace Cert.KernelIdeal.ValHead

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

/-- A flat array of 640000 words laid out as a column, read at (e, 0). -/
theorem column_apply (v : IVec S640000 32) (e : Fin 640000) :
    shapeCast S640000x1 v shapeCasts_S640000_S640000x1 (ix2 e (0 : Fin 1)) = v (ix1 e) := by
  refine shapeCast_apply v _ _ (ix1 e) ?_
  rw [Shape.rowMajor_val_one, Shape.rowMajor_val_two]
  show e.val = e.val * 1 + 0
  omega

/-- After the two reshapes the source column is the source array laid out as a column. -/
theorem head_src (Wv : Valuation τ sig (Elt F)) :
    StableHlo.after (hostOps0 (F := F)) Wv (Proc.devRef .tc main_v0)
      = shapeCast S640000x1 (Wv (Proc.devRef .tc main_arg1)) shapeCasts_S640000_S640000x1 := by
  after_results
  rfl

/-- After the two reshapes the destination column is the destination array laid out as a column. -/
theorem head_dst (Wv : Valuation τ sig (Elt F)) :
    StableHlo.after (hostOps0 (F := F)) Wv (Proc.devRef .tc main_v1)
      = shapeCast S640000x1 (Wv (Proc.devRef .tc main_arg2)) shapeCasts_S640000_S640000x1 := by
  after_results
  rfl

/-- The reshapes write neither the feature array, the weights nor the bias. -/
theorem head_arg0 (Wv : Valuation τ sig (Elt F)) :
    StableHlo.after (hostOps0 (F := F)) Wv (Proc.devRef .tc main_arg0) = Wv (Proc.devRef .tc main_arg0) := by
  after_results
theorem head_arg3 (Wv : Valuation τ sig (Elt F)) :
    StableHlo.after (hostOps0 (F := F)) Wv (Proc.devRef .tc main_arg3) = Wv (Proc.devRef .tc main_arg3) := by
  after_results

end Cert.KernelIdeal.ValHead

end
-- ==== Proof.KernelValue.lean ====
import proofs.«401872_j33182917328985_3_alg».proof.Proof.FI.Main
import proofs.«401872_j33182917328985_3_alg».proof.Proof.ValR0
import proofs.«401872_j33182917328985_3_alg».proof.Proof.ValR1
import proofs.«401872_j33182917328985_3_alg».proof.Proof.ValTail
import proofs.«401872_j33182917328985_3_alg».proof.Proof.ValHead
import proofs.«401872_j33182917328985_3_alg».proof.Proof.Spec

/-
  The kernel's result, entry by entry.

  The run ends with the result buffer at the last host lines applied to the second kernel's output and the bias:
  entry (n, o) is the two cores' totals at row n added, plus b(o).  The second kernel's output slab of core cc at
  (n, o) is that core's running total after its last block, over the node table the first kernel left (row n' of x
  times W transposed, zero past the nodes) and over the source and destination words of the edges, which reach the
  kernel as columns whose entry (e, 0) is the flat array's entry e.  No host line and no kernel writes an argument
  array, so every array read along the way is the launch memory's.  Together: the specification's kernel form.
-/

noncomputable section

namespace Cert.KernelIdeal.KernelValue

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The first host lines do not write the bias. -/
theorem head_arg4 (Wv : Valuation τ sig (Elt Ideal)) :
    StableHlo.after (hostOps0 (F := Ideal)) Wv (Proc.devRef .tc main_arg4) = Wv (Proc.devRef .tc main_arg4) := by
  after_results

/-- The features as the first kernel finds them are the launch memory's. -/
theorem entry_arg0 (c : Dev nD) : V1 m ρ c main_arg0 = m ((c.tc : Thread nD τ).loc main_arg0) :=
  ValHead.head_arg0 (W0 m ρ c)

/-- The weights as the first kernel finds them are the launch memory's. -/
theorem entry_arg3 (c : Dev nD) : V1 m ρ c main_arg3 = m ((c.tc : Thread nD τ).loc main_arg3) :=
  ValHead.head_arg3 (W0 m ρ c)

/-- The bias the last host lines read is the launch memory's: neither kernel has a window on it. -/
theorem exit_arg4 (c : Dev nD) : W3 m ρ c (Proc.devRef .tc main_arg4) = m ((c.tc : Thread nD τ).loc main_arg4) :=
  (W3_of_ne m ρ c main_arg4 (by decide)).trans
    ((W2_of_ne m ρ c main_arg4 (by decide)).trans (head_arg4 (W0 m ρ c)))

/-- The source column the second kernel finds reads, at (e, 0), the launch memory's source word of edge e. -/
theorem src_col (c : Dev nD) (e : Fin 640000) :
    (V2 m ρ c main_v0 : S640000x1.Idx → BitVec 32) (ix2 e (0 : Fin 1)) = m ((c.tc : Thread nD τ).loc main_arg1) (ix1 e) :=
  (congrFun ((V2_main_v0 m ρ c).trans (ValHead.head_src (W0 m ρ c))) (ix2 e (0 : Fin 1))).trans
    (ValHead.column_apply (m ((c.tc : Thread nD τ).loc main_arg1)) e)

/-- The destination column likewise. -/
theorem dst_col (c : Dev nD) (e : Fin 640000) :
    (V2 m ρ c main_v1 : S640000x1.Idx → BitVec 32) (ix2 e (0 : Fin 1)) = m ((c.tc : Thread nD τ).loc main_arg2) (ix1 e) :=
  (congrFun ((V2_main_v1 m ρ c).trans (ValHead.head_dst (W0 m ρ c))) (ix2 e (0 : Fin 1))).trans
    (ValHead.column_apply (m ((c.tc : Thread nD τ).loc main_arg2)) e)

/-- The node table the second kernel finds is the padded product of the launch memory's features and weights. -/
theorem table_eq (c : Dev nD) (n' : Fin 10112) (o : Fin 128) :
    (V2 m ρ c main_v2 : S10112x128.Idx → EReal) (ix2 n' o)
      = Cert.Spec.XW (m ((c.tc : Thread nD τ).loc main_arg0)) (m ((c.tc : Thread nD τ).loc main_arg3)) n' o := by
  rw [← entry_arg0 m ρ c, ← entry_arg3 m ρ c, ← ValR0.xw_eq (V1 m ρ) c n' o]
  exact congrFun (V2_main_v2 m ρ c) (ix2 n' o)

/-- The second kernel's output at (cc, r, o): core cc's running total after its last block. -/
theorem slab_eq (c : Dev nD) (cc : Fin 2) (r : Fin 10112) (o : Fin 128) :
    (W3 m ρ c (Proc.devRef .tc main_v3) : S2x10112x128.Idx → EReal) (ix3 cc r o)
      = Cert.Spec.Acc (m ((c.tc : Thread nD τ).loc main_arg0)) (fun e => m ((c.tc : Thread nD τ).loc main_arg1) (ix1 e))
          (fun e => m ((c.tc : Thread nD τ).loc main_arg2) (ix1 e)) (m ((c.tc : Thread nD τ).loc main_arg3)) cc 624 (by decide) r o := by
  have hsrc : (fun e : Fin 640000 => (V2 m ρ c main_v0 : S640000x1.Idx → BitVec 32) (ix2 e (0 : Fin 1)))
      = fun e => m ((c.tc : Thread nD τ).loc main_arg1) (ix1 e) := funext (src_col m ρ c)
  have hdst : (fun e : Fin 640000 => (V2 m ρ c main_v1 : S640000x1.Idx → BitVec 32) (ix2 e (0 : Fin 1)))
      = fun e => m ((c.tc : Thread nD τ).loc main_arg2) (ix1 e) := funext (dst_col m ρ c)
  rw [← hsrc, ← hdst]
  exact (congrFun (W3_main_v3 m ρ c) (ix3 cc r o)).trans
    (ValR1.h_eq (V2 m ρ) c _ _ (table_eq m ρ c) cc r o)

/-- The kernel's result at (n, o) is the specification's kernel form of the launch memory's argument arrays. -/
theorem kernel_value (c : Dev nD) (n : Fin 10000) (o : Fin 128) :
    (W4 m ρ c (Proc.devRef .tc main_v12) : S10000x128.Idx → EReal) (ix2 n o)
      = Cert.Spec.Kform (m ((c.tc : Thread nD τ).loc main_arg0)) (fun e => m ((c.tc : Thread nD τ).loc main_arg1) (ix1 e))
          (fun e => m ((c.tc : Thread nD τ).loc main_arg2) (ix1 e)) (m ((c.tc : Thread nD τ).loc main_arg3))
          (m ((c.tc : Thread nD τ).loc main_arg4)) n o := by
  show StableHlo.after (hostOps2 (F := Ideal)) (W3 m ρ c) (Proc.devRef .tc main_v12) (ix2 n o) = _
  rw [ValTail.tail_term, ValTail.tailTerm_apply, slab_eq m ρ c, slab_eq m ρ c, exit_arg4 m ρ c]
  rfl

end Cert.KernelIdeal.KernelValue

end
-- ==== Proof.LibGatherRows.lean ====
/-
  A `stablehlo.gather` that takes whole rows: what `x[idx]` lowers to when `x` has two or three axes and `idx` is a
  list of positions on the first.  The start indices are the list as an [n × 1] column; the operand's first axis is
  collapsed and start-indexed, its other axes are offset axes taken whole.  Result row `j` is the operand's row at
  the `j`-th start index read as a signed integer and clamped into the rows that exist (StableHLO's clamp): a negative
  index reads row 0, one past the end reads the last row.
-/
import Idealize.ShloMosaic.Lib.ValueIdx

noncomputable section

namespace Cert.GatherRows

open Idealize.ShloMosaic Idealize.ShloMosaic.ValueIdx

/-- Rows of a matrix: `[N, C]` at `[n, 1]` start indices gives `[n, C]`; entry `(j, k)` is the operand's at
    (clamped start index `j`, `k`).  The hypotheses are the printed dimension numbers, each by `rfl`. -/
theorem gather_rows2 {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (j : Fin n) (k : Fin C) :
    Host.gather d x idx (ix2 j k)
      = x (ix2 ⟨min (idx (ix2 j (0 : Fin 1))).toInt.toNat (N - 1), by omega⟩ k) := by
  unfold Host.gather
  congr 1
  funext a
  refine Fin.ext ?_
  have hb : ∀ a : Fin 2, a ∉ d.operandBatchingDims := fun a => by rw [hob]; exact List.not_mem_nil
  -- the result's one batch axis is its first
  have hbd : d.batchDims = [0] := by
    show (List.finRange 2).filter (· ∉ d.offsetDims) = _
    rw [hoff]; rfl
  match a with
  | ⟨0, _⟩ =>
    -- the row axis: collapsed and start-indexed, so no offset or batching part, a slice of one row, and the start
    -- index clamped into the rows; the start index read is the column's entry at the result's row
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 j k) idx 0 + d.batchCoord (ix2 j k) 0 + d.offCoord (ix2 j k) 0 = _
    rw [GatherDims.batchCoord_eq_zero _ _ _ (hb 0), GatherDims.offCoord_eq_zero _ _ _ hk]
    simp only [Nat.add_zero]
    unfold GatherDims.start
    rw [dif_pos hm]
    have e : ∀ X : Fin 2, X ∈ d.batchDims → ((ix2 j k : (⟨2, ![n, C]⟩ : Shape).Idx) X).val = j.val := fun X hX => by
      rw [hbd] at hX
      obtain rfl := List.mem_singleton.mp hX
      rfl
    have hsi : d.siIdx (ix2 j k) ⟨List.idxOf (0 : Fin 2) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 2) d.startIndexMap = 0
        rw [hsim]; simp
    rw [hsi, hsl]
    rfl
  | ⟨1, _⟩ =>
    -- the column axis: an offset axis taken whole, so the start is 0 and the coordinate is the result's own
    have hk : (1 : Fin 2) ∈ d.sKept := by rw [GatherDims.mem_sKept, hcoll, hob]; simp
    have hm : (1 : Fin 2) ∉ d.startIndexMap := by rw [hsim]; simp
    show d.start (ix2 j k) idx 1 + d.batchCoord (ix2 j k) 1 + d.offCoord (ix2 j k) 1 = k.val
    rw [GatherDims.batchCoord_eq_zero _ _ _ (hb 1)]
    unfold GatherDims.start GatherDims.offCoord
    rw [dif_neg hm, dif_pos hk]
    simp only [Nat.add_zero, Nat.zero_add]
    have e : ∀ X : Fin 2, X ∈ d.offsetDims → ((ix2 j k : (⟨2, ![n, C]⟩ : Shape).Idx) X).val = k.val := fun X hX => by
      rw [hoff] at hX
      obtain rfl := List.mem_singleton.mp hX
      rfl
    exact e _ (List.getElem_mem _)

/-- Rows of a stack of matrices: `[N, L, C]` at `[n, 1]` start indices gives `[n, L, C]`; entry `(j, l, k)` is the
    operand's at (clamped start index `j`, `l`, `k`). -/
theorem gather_rows3 {α : Type} {N L C n w : Nat} (hN : 0 < N)
    (d : GatherDims ⟨3, ![N, L, C]⟩ ⟨2, ![n, 1]⟩ ⟨3, ![n, L, C]⟩)
    (hoff : d.offsetDims = [1, 2]) (hcoll : d.collapsedSliceDims = [0]) (hob : d.operandBatchingDims = [])
    (hsim : d.startIndexMap = [0]) (hivd : d.indexVectorDim = 1)
    (x : (⟨3, ![N, L, C]⟩ : Shape).Idx → α) (idx : IVec ⟨2, ![n, 1]⟩ w) (j : Fin n) (l : Fin L) (k : Fin C) :
    Host.gather d x idx (ix3 j l k)
      = x (ix3 ⟨min (idx (ix2 j (0 : Fin 1))).toInt.toNat (N - 1), by omega⟩ l k) := by
  unfold Host.gather
  congr 1
  funext a
  refine Fin.ext ?_
  have hb : ∀ a : Fin 3, a ∉ d.operandBatchingDims := fun a => by rw [hob]; exact List.not_mem_nil
  -- the result's one batch axis is its first; the operand's kept axes are its second and third
  have hbd : d.batchDims = [0] := by
    show (List.finRange 3).filter (· ∉ d.offsetDims) = _
    rw [hoff]; rfl
  have hsk : d.sKept = [1, 2] := by
    show (List.finRange 3).filter (· ∉ d.collapsedSliceDims ++ d.operandBatchingDims) = _
    rw [hcoll, hob]; rfl
  -- an operand axis that is kept and not start-indexed reads the result's coordinate on the offset axis in its position
  have hoffax : ∀ (a : Fin 3) (p : Nat) (hp : p < d.offsetDims.length), a ∈ d.sKept → a ∉ d.startIndexMap →
      d.sKept.idxOf a = p →
      d.start (ix3 j l k) idx a + d.batchCoord (ix3 j l k) a + d.offCoord (ix3 j l k) a
        = ((ix3 j l k : (⟨3, ![n, L, C]⟩ : Shape).Idx) (d.offsetDims[p]'hp)).val := by
    intro a p hp hk hm hidx
    subst hidx
    rw [GatherDims.batchCoord_eq_zero _ _ _ (hb a)]
    unfold GatherDims.start GatherDims.offCoord
    rw [dif_neg hm, dif_pos hk]
    simp only [Nat.add_zero, Nat.zero_add]
  match a with
  | ⟨0, _⟩ =>
    -- the row axis: collapsed and start-indexed, so no offset or batching part, a slice of one row, and the start
    -- index clamped into the rows; the start index read is the column's entry at the result's row
    have hk : (0 : Fin 3) ∉ d.sKept := by rw [GatherDims.mem_sKept, hcoll]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 j l k) idx 0 + d.batchCoord (ix3 j l k) 0 + d.offCoord (ix3 j l k) 0 = _
    rw [GatherDims.batchCoord_eq_zero _ _ _ (hb 0), GatherDims.offCoord_eq_zero _ _ _ hk]
    simp only [Nat.add_zero]
    unfold GatherDims.start
    rw [dif_pos hm]
    have e : ∀ X : Fin 3, X ∈ d.batchDims → ((ix3 j l k : (⟨3, ![n, L, C]⟩ : Shape).Idx) X).val = j.val := fun X hX => by
      rw [hbd] at hX
      obtain rfl := List.mem_singleton.mp hX
      rfl
    have hsi : d.siIdx (ix3 j l k) ⟨List.idxOf (0 : Fin 3) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 3) d.startIndexMap = 0
        rw [hsim]; simp
    rw [hsi, hsl]
    rfl
  | ⟨1, _⟩ =>
    -- the second axis: the first of the two offset axes
    have hk : (1 : Fin 3) ∈ d.sKept := by rw [hsk]; simp
    have hm : (1 : Fin 3) ∉ d.startIndexMap := by rw [hsim]; simp
    have hp : 0 < d.offsetDims.length := by rw [hoff]; simp
    have h1 : d.offsetDims[0]'hp = 1 := by rw [List.getElem_of_eq hoff]; rfl
    show d.start (ix3 j l k) idx 1 + d.batchCoord (ix3 j l k) 1 + d.offCoord (ix3 j l k) 1 = l.val
    rw [hoffax 1 0 hp hk hm (by rw [hsk]; rfl), h1]
    rfl
  | ⟨2, _⟩ =>
    -- the third axis: the second of the two offset axes
    have hk : (2 : Fin 3) ∈ d.sKept := by rw [hsk]; simp
    have hm : (2 : Fin 3) ∉ d.startIndexMap := by rw [hsim]; simp
    have hp : 1 < d.offsetDims.length := by rw [hoff]; simp
    have h2 : d.offsetDims[1]'hp = 2 := by rw [List.getElem_of_eq hoff]; rfl
    show d.start (ix3 j l k) idx 2 + d.batchCoord (ix3 j l k) 2 + d.offCoord (ix3 j l k) 2 = k.val
    rw [hoffax 2 1 hp hk hm (by rw [hsk]; rfl), h2]
    rfl

end Cert.GatherRows

end
-- ==== Proof.LibScatterRead.lean ====
/-
  Reading a scatter whose body returns the update ("set") at an index.

  `Host.scatter d (fun _ b => b) x idx upd` is a left fold of point updates over the update indices in row-major
  order.  At a result index that no update index lands on, the fold leaves the operand's element; at a result index
  that exactly one update index lands on, it leaves that update's element, wherever in the order it stands.
  The element type is arbitrary: the same two facts read a float array and a boolean mask.
-/
import Idealize.ShloMosaic.PureOps.ShapeOps

namespace Cert.LibScatterRead

open Idealize.ShloMosaic

variable {s si u : Shape} {w : Nat} {α : Type}

/-- One step of the fold: the point update of update number `n`. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose update lands elsewhere (or nowhere) leaves the element at `i'`. -/
theorem step_miss (d : ScatterDims s si u) (idx : IVec si w) (upd : u.Idx → α) (r : s.Idx → α) (n : Fin u.numel)
    (i' : s.Idx) (h : d.resultIdx? (u.rowMajor.symm n) idx ≠ some i') : step d idx upd r n i' = r i' := by
  unfold step
  cases hr : d.resultIdx? (u.rowMajor.symm n) idx with
  | none => rfl
  | some i =>
    have hne : i' ≠ i := fun e => h (by rw [hr, e])
    simp only [if_neg hne]

/-- A step whose update lands at `i'` leaves the update's element there. -/
theorem step_hit (d : ScatterDims s si u) (idx : IVec si w) (upd : u.Idx → α) (r : s.Idx → α) (n : Fin u.numel)
    (i' : s.Idx) (h : d.resultIdx? (u.rowMajor.symm n) idx = some i') :
    step d idx upd r n i' = upd (u.rowMajor.symm n) := by
  unfold step
  rw [h]
  exact if_pos rfl

theorem foldl_miss (d : ScatterDims s si u) (idx : IVec si w) (upd : u.Idx → α) (i' : s.Idx) :
    ∀ (l : List (Fin u.numel)) (r : s.Idx → α), (∀ n ∈ l, d.resultIdx? (u.rowMajor.symm n) idx ≠ some i') →
      l.foldl (step d idx upd) r i' = r i'
  | [], _, _ => rfl
  | a :: t, r, h => by
    rw [List.foldl_cons, foldl_miss d idx upd i' t _ (fun n hn => h n (List.mem_cons_of_mem _ hn)),
      step_miss d idx upd r a i' (h a List.mem_cons_self)]

theorem foldl_hit (d : ScatterDims s si u) (idx : IVec si w) (upd : u.Idx → α) (i' : s.Idx) (n0 : Fin u.numel)
    (h0 : d.resultIdx? (u.rowMajor.symm n0) idx = some i') :
    ∀ (l : List (Fin u.numel)) (r : s.Idx → α), n0 ∈ l →
      (∀ n ∈ l, d.resultIdx? (u.rowMajor.symm n) idx = some i' → n = n0) →
      l.foldl (step d idx upd) r i' = upd (u.rowMajor.symm n0)
  | [], _, hm, _ => absurd hm List.not_mem_nil
  | a :: t, r, hm, hu => by
    rw [List.foldl_cons]
    by_cases ht : n0 ∈ t
    · exact foldl_hit d idx upd i' n0 h0 t _ ht (fun n hn => hu n (List.mem_cons_of_mem _ hn))
    · have ha : a = n0 := by
        rcases List.mem_cons.1 hm with e | e
        · exact e.symm
        · exact absurd e ht
      rw [foldl_miss d idx upd i' t _ (fun n hn e => ht (hu n (List.mem_cons_of_mem _ hn) e ▸ hn)), ha,
        step_hit d idx upd r n0 i' h0]

/-- At a result index no update lands on, the scatter leaves the operand's element. -/
theorem scatter_set_miss (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  rw [scatter_eq_foldl]
  exact foldl_miss d idx upd i' _ x (fun n _ => h _)

/-- At a result index exactly one update index `j` lands on, the scatter leaves that update's element. -/
theorem scatter_set_hit (d : ScatterDims s si u) (x : s.Idx → α) (idx : IVec si w) (upd : u.Idx → α) (i' : s.Idx)
    (j : u.Idx) (hj : d.resultIdx? j idx = some i') (huniq : ∀ j' : u.Idx, d.resultIdx? j' idx = some i' → j' = j) :
    Host.scatter d (fun _ b => b) x idx upd i' = upd j := by
  rw [scatter_eq_foldl]
  have h0 : d.resultIdx? (u.rowMajor.symm (u.rowMajor j)) idx = some i' := by rw [Equiv.symm_apply_apply]; exact hj
  have := foldl_hit d idx upd i' (u.rowMajor j) h0 (List.finRange u.numel) x (List.mem_finRange _)
    (fun n _ e => by
      have := huniq _ e
      rw [← this, Equiv.apply_symm_apply])
  rw [this, Equiv.symm_apply_apply]

/-- Update index `j` lands at `i'` exactly when on every axis `i'` is the start plus the window coordinate. -/
theorem resultIdx?_eq_some_iff (d : ScatterDims s si u) (j : u.Idx) (idx : IVec si w) (i' : s.Idx) :
    d.resultIdx? j idx = some i' ↔ ∀ a, ((i' a).val : Int) = d.start j idx a + d.window j a := by
  unfold ScatterDims.resultIdx?
  split
  · rename_i h
    rw [Option.some.injEq]
    constructor
    · rintro rfl a
      have := (h a).1
      simp only [Int.toNat_of_nonneg this]
    · intro hi
      funext a
      apply Fin.ext
      have := hi a
      simp only
      omega
  · rename_i h
    constructor
    · intro hh; cases hh
    · intro hi
      exfalso
      apply h
      intro a
      have := hi a
      have := (i' a).isLt
      omega

end Cert.LibScatterRead
-- ==== Proof.LibScatterRows.lean ====
/-
  A scatter that adds whole rows, read at an index.

  The operand has rows i < N of C columns; the scatter indices are a column of n start rows; update row e is added to
  the operand's row at the e-th start index read as a signed integer, column by column, and dropped when that row does
  not exist.  So entry (i, k) of the result is the operand's entry plus the sum, over the update rows e whose start
  index is i, of the update's entry (e, k).  Stated for the exact float sum and for the integer fold.
-/
import Idealize.ShloMosaic.Lib.ValueIdx
import Idealize.ShloMosaic.PureOps.Ideal
import Idealize.ShloMosaic.PureOps.Contract
import Mathlib.Data.BitVec
import proofs.«401872_j33182917328985_3_alg».proof.Proof.LibScatterRead

noncomputable section

namespace Cert.ScatterRows

open Idealize.ShloMosaic Idealize.ShloMosaic.ValueIdx

variable {N C n w : Nat}

/-- Update entry (e, k) lands on operand entry (i, k') exactly when the e-th start index, read signed, is i and the
    columns agree.  The hypotheses are the printed dimension numbers, each by `rfl`. -/
theorem resultIdx?_rows2 (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (k : Fin C) (i : Fin N) (k' : Fin C) :
    d.resultIdx? (ix2 e k) idx = some (ix2 i k') ↔ (idx (ix2 e (0 : Fin 1))).toInt = (i.val : ℤ) ∧ k = k' := by
  rw [Cert.LibScatterRead.resultIdx?_eq_some_iff]
  -- the operand's kept axis is its second; the update's scatter axis is its first
  have hsk : d.sKept = [1] := by
    show (List.finRange 2).filter (· ∉ d.insertedWindowDims) = _
    rw [hiw]; rfl
  have hus : d.uScatter = [0] := by
    show (List.finRange 2).filter (· ∉ d.updateWindowDims) = _
    rw [huw]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  -- the start index read for update row e is the column's entry at e
  have hsi : d.siIdx (ix2 e k) ⟨List.idxOf (0 : Fin 2) d.scatterDimsToOperandDims, List.idxOf_lt_length_iff.2 hm0⟩
      = ix2 e (0 : Fin 1) := by
    funext b
    refine Fin.ext ?_
    match b with
    | ⟨0, _⟩ =>
      unfold ScatterDims.siIdx
      rw [dif_neg (by rw [hivd]; exact Nat.zero_ne_one)]
      unfold ScatterDims.siCoord
      simp only [Fin.val_cast]
      have e' : ∀ X : Fin 2, X ∈ d.uScatter → ((ix2 e k : (⟨2, ![n, C]⟩ : Shape).Idx) X).val = e.val := fun X hX => by
        rw [hus] at hX
        obtain rfl := List.mem_singleton.mp hX
        rfl
      exact e' _ (List.getElem_mem _)
    | ⟨1, _⟩ =>
      unfold ScatterDims.siIdx
      rw [dif_pos (by rw [hivd])]
      show List.idxOf (0 : Fin 2) d.scatterDimsToOperandDims = 0
      rw [hsd]; simp
  -- the row axis: start-indexed and inserted; the column axis: not start-indexed, the window's own coordinate
  have hs0 : d.start (ix2 e k) idx 0 = (idx (ix2 e (0 : Fin 1))).toInt := by
    unfold ScatterDims.start
    rw [dif_pos hm0, hsi]
  have hs1 : d.start (ix2 e k) idx 1 = 0 := by
    unfold ScatterDims.start
    rw [dif_neg hm1]
  have hw0 : d.window (ix2 e k) 0 = 0 := by
    unfold ScatterDims.window
    rw [dif_neg hk0]
  have hw1 : d.window (ix2 e k) 1 = k.val := by
    unfold ScatterDims.window
    rw [dif_pos hk1]
    have e' : ∀ X : Fin 2, X ∈ d.updateWindowDims → ((ix2 e k : (⟨2, ![n, C]⟩ : Shape).Idx) X).val = k.val := fun X hX => by
      rw [huw] at hX
      obtain rfl := List.mem_singleton.mp hX
      rfl
    exact e' _ (List.getElem_mem _)
  have hi0 : (((ix2 i k' : (⟨2, ![N, C]⟩ : Shape).Idx) 0).val : Int) = (i.val : Int) := rfl
  have hi1 : (((ix2 i k' : (⟨2, ![N, C]⟩ : Shape).Idx) 1).val : Int) = (k'.val : Int) := rfl
  constructor
  · intro h
    have h0 := h 0
    have h1 := h 1
    rw [hs0, hw0, hi0] at h0
    rw [hs1, hw1, hi1] at h1
    refine ⟨by omega, Fin.ext (by omega)⟩
  · rintro ⟨h0, rfl⟩ a
    match a with
    | ⟨0, _⟩ =>
      show (((ix2 i k : (⟨2, ![N, C]⟩ : Shape).Idx) 0).val : Int) = d.start (ix2 e k) idx 0 + d.window (ix2 e k) 0
      rw [hs0, hw0, hi0, h0]; simp
    | ⟨1, _⟩ =>
      show (((ix2 i k : (⟨2, ![N, C]⟩ : Shape).Idx) 1).val : Int) = d.start (ix2 e k) idx 1 + d.window (ix2 e k) 1
      rw [hs1, hw1, hi1]; simp

/-- The update indices that land on operand entry (i, k) are the (e, k) whose start index is i, so a sum over them
    is a sum over those rows e. -/
theorem sum_landing_rows2 {M : Type} [AddCommMonoid M] (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (upd : (⟨2, ![n, C]⟩ : Shape).Idx → M)
    (i : Fin N) (k : Fin C) :
    ∑ j ∈ Finset.univ.filter (fun j => d.resultIdx? j idx = some (ix2 i k)), upd j
      = ∑ e ∈ Finset.univ.filter (fun e : Fin n => (idx (ix2 e (0 : Fin 1))).toInt = (i.val : ℤ)),
          upd (ix2 e k) := by
  symm
  refine Finset.sum_bij (fun e _ => ix2 e k) ?_ ?_ ?_ ?_
  · intro e he
    rw [Finset.mem_filter] at he ⊢
    exact ⟨Finset.mem_univ _, (resultIdx?_rows2 d huw hiw hsd hivd idx e k i k).2 ⟨he.2, rfl⟩⟩
  · intro e1 _ e2 _ h
    exact congrFun h 0
  · intro j hj
    rw [Finset.mem_filter] at hj
    have hj2 := hj.2
    rw [eq_ix2 j] at hj2
    obtain ⟨h0, h1⟩ := (resultIdx?_rows2 d huw hiw hsd hivd idx (j 0) (j 1) i k).1 hj2
    refine ⟨j 0, ?_, ?_⟩
    · exact Finset.mem_filter.2 ⟨Finset.mem_univ _, h0⟩
    · rw [← h1]; exact (eq_ix2 j).symm
  · intro e _; rfl

/-- A scatter whose body adds, in a commutative monoid, read at one result index: the operand's element plus the sum
    of the update elements that land there.  The fold visits the update indices in row-major order, each exactly
    once, and the order does not matter to the sum. -/
theorem scatter_add_eq {M : Type} [AddCommMonoid M] {s si u : Shape} (d : ScatterDims s si u) (x : s.Idx → M)
    (idx : IVec si w) (upd : u.Idx → M) (i' : s.Idx) :
    Host.scatter d (fun a b => a + b) x idx upd i'
      = x i' + ∑ j ∈ Finset.univ.filter (fun j => d.resultIdx? j idx = some i'), upd j := by
  have hfold : ∀ (l : List (Fin u.numel)) (r : s.Idx → M),
      l.foldl (fun r n =>
          match d.resultIdx? (u.rowMajor.symm n) idx with
          | some i => fun i' => if i' = i then r i + upd (u.rowMajor.symm n) else r i'
          | none => r) r i'
        = r i' + (l.map fun n =>
            if d.resultIdx? (u.rowMajor.symm n) idx = some i' then upd (u.rowMajor.symm n) else 0).sum := by
    intro l
    induction l with
    | nil => intro r; simp
    | cons a t ih =>
      intro r
      rw [List.foldl_cons, ih, List.map_cons, List.sum_cons]
      cases hr : d.resultIdx? (u.rowMajor.symm a) idx with
      | none => simp
      | some i =>
        by_cases hi : i = i'
        · subst hi; simp [add_assoc]
        · have hi' : i' ≠ i := fun e => hi e.symm
          simp [hi, hi']
  refine (hfold (List.finRange u.numel) x).trans ?_
  rw [← Fin.sum_univ_def, Finset.sum_filter]
  congr 1
  exact Equiv.sum_comp u.rowMajor.symm (fun j => if d.resultIdx? j idx = some i' then upd j else 0)

/-- The exact float scatter-add of rows at entry (i, k). -/
theorem scatterAdd_rows2 {φ : FTy} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (i : Fin N) (k : Fin C) :
    Host.scatterAdd d x idx upd (ix2 i k)
      = x (ix2 i k) + ∑ e ∈ Finset.univ.filter (fun e : Fin n => (idx (ix2 e (0 : Fin 1))).toInt = (i.val : ℤ)),
          upd (ix2 e k) := by
  show Ideal.hostScatterAdd d x idx upd (ix2 i k) = _
  unfold Ideal.hostScatterAdd
  rw [sum_landing_rows2 d huw hiw hsd hivd idx upd i k]

/-- The integer scatter-add of rows (the fold of wrapping additions in row-major order) at entry (i, k). -/
theorem scatter_addi_rows2 {v : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : IVec ⟨2, ![N, C]⟩ v) (idx : IVec ⟨2, ![n, 1]⟩ w)
    (upd : IVec ⟨2, ![n, C]⟩ v) (i : Fin N) (k : Fin C) :
    Host.scatter d IntOp.addi x idx upd (ix2 i k)
      = x (ix2 i k) + ∑ e ∈ Finset.univ.filter (fun e : Fin n => (idx (ix2 e (0 : Fin 1))).toInt = (i.val : ℤ)),
          upd (ix2 e k) := by
  show Host.scatter d (fun a b => a + b) x idx upd (ix2 i k) = _
  rw [scatter_add_eq, sum_landing_rows2 d huw hiw hsd hivd idx upd i k]

/-- Counting in 32-bit words does not wrap below 2^31: the sum of s.card ones over zero, read signed, is s.card. -/
theorem toInt_count (hn : n < 2 ^ 31) (s : Finset (Fin n)) :
    (0#32 + ∑ _e ∈ s, (1#32 : BitVec 32)).toInt = (s.card : ℤ) := by
  have hc : s.card ≤ n := by
    have := Finset.card_le_univ s
    rwa [Fintype.card_fin] at this
  have hsum : (0#32 + ∑ _e ∈ s, (1#32 : BitVec 32)) = BitVec.ofNat 32 s.card := by
    rw [Finset.sum_const, nsmul_eq_mul, BitVec.natCast_eq_ofNat]
    simp
  rw [hsum, BitVec.toInt_eq_toNat_of_lt, BitVec.toNat_ofNat, Nat.mod_eq_of_lt (by omega)]
  rw [BitVec.toNat_ofNat, Nat.mod_eq_of_lt (by omega)]
  omega

end Cert.ScatterRows

end
-- ==== Proof.RefValue.lean ====
import proofs.«401872_j33182917328985_3_alg».proof.Proof.Gen.ReferenceIdeal.Run
import proofs.«401872_j33182917328985_3_alg».proof.Proof.Gen.ReferenceIdeal.Read
import proofs.«401872_j33182917328985_3_alg».proof.Proof.Spec
import proofs.«401872_j33182917328985_3_alg».proof.Proof.LibGatherRows
import proofs.«401872_j33182917328985_3_alg».proof.Proof.LibScatterRows
import proofs.«401872_j33182917328985_3_alg».proof.Proof.LibDotNT
import Idealize.ShloMosaic.Lib.StableHlo.Predicate

/-
  The reference's result, entry by entry.

  The reference carries, for every edge e, row src(e) of the feature table x to row dst(e) of a zero table by adding,
  multiplies the table of sums by W transposed and adds the bias.  A source word that is negative is first moved up
  by the number of nodes; a source word that is the word of a node s(e) is not negative, so the row gathered for e
  is row s(e).  Entry (n, o) of the result is therefore
      Σ_k (0 + Σ_{e : dst(e) = n} x(s(e), k)) · W(o, k) + b(o),
  the specification's reference form.
-/

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The start rows of the gather: a negative source word moved up by the number of nodes, any other kept. -/
def startRows (src : IVec S640000 32) : IVec S640000 32 :=
  select (cmpi .slt src (broadcastInDim S640000 ![] bcast_S_S640000 (constantI S_ 32 0#32)))
    (addi src (broadcastInDim S640000 ![] bcast_S_S640000 (constantI S_ 32 10000#32))) src

/-- The rows of x picked by the edges' start rows: one row of 128 features per edge. -/
def gathered (x : FVec Ideal S10000x128 .f32) (src : IVec S640000 32) : FVec Ideal S640000x128 .f32 :=
  Host.gather gather_S10000x128_S640000x1_S640000x128_1_0_n_n_0_1_1128 x
    (broadcastInDim S640000x1 ![0] bcast_S640000_S640000x1_0 (startRows src))

/-- The picked rows added into a zero table at the edges' destination rows. -/
def summed (x : FVec Ideal S10000x128 .f32) (src dst : IVec S640000 32) : FVec Ideal S10000x128 .f32 :=
  Host.scatterAdd scatter_S10000x128_S640000x1_S640000x128_1_0_0_1
    (broadcastInDim S10000x128 ![] bcast_S_S10000x128 (constant (F := Ideal) S_ .f32 0x00000000#32))
    (broadcastInDim S640000x1 ![0] bcast_S640000_S640000x1_0 dst) (gathered x src)

/-- The reference's result as one term of its five argument arrays. -/
def refTerm (x : FVec Ideal S10000x128 .f32) (src dst : IVec S640000 32) (W : FVec Ideal S128x128 .f32)
    (b : FVec Ideal S128 .f32) : FVec Ideal S10000x128 .f32 :=
  addf (Host.dotGeneral dot_S10000x128_S128x128_S10000x128_1_1_0_0_n_n none (summed x src dst) W)
    (broadcastInDim S10000x128 ![0, 1] bcast_S1x128_S10000x128_0_1 (broadcastInDim S1x128 ![1] bcast_S128_S1x128_1 b))

/-- The reference's last stage is that term. -/
theorem refTerm_eq_val (x : FVec Ideal S10000x128 .f32) (src dst : IVec S640000 32) (W : FVec Ideal S128x128 .f32)
    (b : FVec Ideal S128 .f32) : Read.val_main_v13 (F := Ideal) x src dst W b = refTerm x src dst W b := rfl

/-- The term the reference's run leaves in its result buffer is that term of the memory's argument arrays. -/
theorem run_term (m : (ℓ : Loc nD τ sig) → Buf (Elt Ideal) ℓ) (c : Dev nD) :
    addf (Host.dotGeneral (F := Ideal) (φ₁ := .f32) (φ₂ := .f32) dot_S10000x128_S128x128_S10000x128_1_1_0_0_n_n none (Host.scatterAdd scatter_S10000x128_S640000x1_S640000x128_1_0_0_1 (broadcastInDim S10000x128 ![] bcast_S_S10000x128 (constant (F := Ideal) S_ .f32 0x00000000#32)) (broadcastInDim S640000x1 ![0] bcast_S640000_S640000x1_0 (m ((c.tc : Thread nD τ).loc main_arg2))) (Host.gather gather_S10000x128_S640000x1_S640000x128_1_0_n_n_0_1_1128 (m ((c.tc : Thread nD τ).loc main_arg0)) (broadcastInDim S640000x1 ![0] bcast_S640000_S640000x1_0 (select (cmpi .slt (m ((c.tc : Thread nD τ).loc main_arg1)) (broadcastInDim S640000 ![] bcast_S_S640000 (constantI S_ 32 0#32))) (addi (m ((c.tc : Thread nD τ).loc main_arg1)) (broadcastInDim S640000 ![] bcast_S_S640000 (constantI S_ 32 10000#32))) (m ((c.tc : Thread nD τ).loc main_arg1)))))) (m ((c.tc : Thread nD τ).loc main_arg3))) (broadcastInDim S10000x128 ![0, 1] bcast_S1x128_S10000x128_0_1 (broadcastInDim S1x128 ![1] bcast_S128_S1x128_1 (m ((c.tc : Thread nD τ).loc main_arg4))))
      = refTerm (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := rfl

/-! ### The stages at an index -/

/-- The bias, laid along every row, reads the bias at the column. -/
theorem bias_apply (b : FVec Ideal S128 .f32) (n : Fin 10000) (o : Fin 128) :
    broadcastInDim S10000x128 ![0, 1] bcast_S1x128_S10000x128_0_1 (broadcastInDim S1x128 ![1] bcast_S128_S1x128_1 b) (ix2 n o)
      = b (ix1 o) :=
  (Read.val_main_v12_apply (F := Ideal) b (ix2 n o)).trans
    ((Read.val_main_v11_apply (F := Ideal) b _).trans
      (congrArg b (funext fun a => match a with | ⟨0, _⟩ => rfl)))

/-- The zero table reads 0 everywhere. -/
theorem zeros_apply (i : S10000x128.Idx) :
    broadcastInDim S10000x128 ![] bcast_S_S10000x128 (constant (F := Ideal) S_ .f32 0x00000000#32) i = 0 :=
  (Read.val_main_v7_apply (F := Ideal) i).trans Ideal.ofBits_zero_f32

/-- The destination words as a column read, at row e, the destination word of edge e. -/
theorem dstCol_apply (dst : IVec S640000 32) (e : Fin 640000) :
    broadcastInDim S640000x1 ![0] bcast_S640000_S640000x1_0 dst (ix2 e (0 : Fin 1)) = dst (ix1 e) :=
  (Read.val_main_v8_apply (F := Ideal) dst (ix2 e (0 : Fin 1))).trans
    (congrArg dst (funext fun a => match a with | ⟨0, _⟩ => rfl))

/-- A source word that is the word of a node is not negative, so the start row of its edge is that word. -/
theorem startRows_apply (src : IVec S640000 32) (v : Fin 10000) (e : Fin 640000)
    (h : src (ix1 e) = BitVec.ofNat 32 v.val) : startRows src (ix1 e) = BitVec.ofNat 32 v.val := by
  have hv := v.isLt
  have h0 : broadcastInDim S640000 ![] bcast_S_S640000 (constantI S_ 32 0#32) (ix1 e) = 0#32 :=
    Read.val_main_v0_apply (F := Ideal) (ix1 e)
  have hc : IntOp.cmpi .slt (src (ix1 e)) 0#32 = 0#1 := by
    refine eq_zero_of_ne_one fun h1 => ?_
    rw [h] at h1
    have := (Predicate.slt_iff_toNat (a := BitVec.ofNat 32 v.val) (b := 0#32)
      (by rw [BitVec.toNat_ofNat, Nat.mod_eq_of_lt (by omega)]; omega) (by decide)).1 h1
    exact absurd this (by simp)
  show Scalar.select (IntOp.cmpi .slt (src (ix1 e)) (broadcastInDim S640000 ![] bcast_S_S640000 (constantI S_ 32 0#32) (ix1 e))) _ (src (ix1 e)) = _
  rw [h0, hc, select_zero, h]

/-- The start rows as a column read, at row e, the start row of edge e. -/
theorem startCol_apply (src : IVec S640000 32) (e : Fin 640000) :
    broadcastInDim S640000x1 ![0] bcast_S640000_S640000x1_0 (startRows src) (ix2 e (0 : Fin 1)) = startRows src (ix1 e) :=
  (Read.val_main_v8_apply (F := Ideal) (startRows src) (ix2 e (0 : Fin 1))).trans
    (congrArg (startRows src) (funext fun a => match a with | ⟨0, _⟩ => rfl))

/-- The row gathered for an edge whose source word is the word of the node s e is row s e of x. -/
theorem gathered_apply (x : FVec Ideal S10000x128 .f32) (src : IVec S640000 32) (v : Fin 10000) (e : Fin 640000)
    (h : src (ix1 e) = BitVec.ofNat 32 v.val) (k : Fin 128) : gathered x src (ix2 e k) = x (ix2 v k) := by
  have hv := v.isLt
  unfold gathered
  rw [Cert.GatherRows.gather_rows2 (by decide) gather_S10000x128_S640000x1_S640000x128_1_0_n_n_0_1_1128 rfl rfl rfl rfl rfl
    x _ e k]
  refine congrArg x ?_
  refine congrArg (fun r : Fin 10000 => ix2 r k) (Fin.ext ?_)
  show min (broadcastInDim S640000x1 ![0] bcast_S640000_S640000x1_0 (startRows src) (ix2 e (0 : Fin 1))).toInt.toNat (10000 - 1) = v.val
  rw [startCol_apply, startRows_apply src v e h, Predicate.toInt_ofNat_small v.val (by omega), Int.toNat_natCast]
  omega

/-- The table of sums at (n, k): zero plus the rows of the edges whose destination word, read signed, is n. -/
theorem summed_apply (x : FVec Ideal S10000x128 .f32) (src dst : IVec S640000 32) (s : Fin 640000 → Fin 10000)
    (hs : ∀ e : Fin 640000, src (ix1 e) = BitVec.ofNat 32 (s e).val) (n : Fin 10000) (k : Fin 128) :
    summed x src dst (ix2 n k)
      = 0 + ∑ e ∈ Finset.univ.filter (fun e : Fin 640000 => (dst (ix1 e)).toInt = (n.val : ℤ)), x (ix2 (s e) k) := by
  unfold summed
  rw [Cert.ScatterRows.scatterAdd_rows2 scatter_S10000x128_S640000x1_S640000x128_1_0_0_1 rfl rfl rfl rfl, zeros_apply]
  refine congrArg (fun t : EReal => 0 + t) ?_
  refine Finset.sum_congr (Finset.filter_congr fun e _ => by rw [dstCol_apply]) fun e _ => ?_
  exact gathered_apply x src (s e) e (hs e) k

/-- The reference's result at (n, o) is the specification's reference form. -/
theorem ref_eq (x : FVec Ideal S10000x128 .f32) (src dst : IVec S640000 32) (W : FVec Ideal S128x128 .f32)
    (b : FVec Ideal S128 .f32) (s : Fin 640000 → Fin 10000)
    (hs : ∀ e : Fin 640000, src (ix1 e) = BitVec.ofNat 32 (s e).val) (n : Fin 10000) (o : Fin 128) :
    refTerm x src dst W b (ix2 n o) = Cert.Spec.Rform x (fun e => dst (ix1 e)) W b s n o := by
  unfold refTerm Cert.Spec.Rform
  rw [addf_apply, bias_apply]
  refine congrArg (fun t : EReal => t + b (ix1 o)) ?_
  have hd : dot_S10000x128_S128x128_S10000x128_1_1_0_0_n_n
      = Idealize.ShloMosaic.DotNT.dims dot_S10000x128_S128x128_S10000x128_1_1_0_0_n_n_wf := rfl
  rw [hd, Idealize.ShloMosaic.DotNT.dotGeneral_apply]
  exact Finset.sum_congr rfl fun k _ => by rw [summed_apply x src dst s hs n k]

end Cert.ReferenceIdeal.RefValue

end
-- ==== Proof.PreFacts.lean ====
import proofs.«401872_j33182917328985_3_alg».proof.Pre_finite_inputs
import Idealize.ShloMosaic.Lib.ReduceAll
import Idealize.ShloMosaic.Lib.ValueIdx
import Idealize.ShloMosaic.PureOps.Ideal.Laws

/-
  What the precondition says of the arguments.

  The precondition is one bit: every entry of x, of W and of b has absolute value below +∞, and every source word,
  read signed, lies in [0, 10000); the four "for all" are and-reductions of the elementwise bits, and-ed together.
  When the bit is 1 every elementwise bit is 1.  An extended real with max(a, -a) < +∞ is neither infinity, so it is
  a real number; a 32-bit word whose signed value is in [0, 10000) is the word of that value, a node.
-/

noncomputable section

namespace Cert.PreFacts

open Idealize.ShloMosaic Idealize.ShloMosaic.ValueIdx Cert.Pre_finite_inputs

/-- An extended real whose absolute value max(a, -a) compares below the word of +∞ is a real number. -/
theorem real_of_abs_lt_inf (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  have htop : Ideal.ofBits .f32 0x7F800000#32 = ⊤ := by simp [Ideal.ofBits, Ideal.ieee]
  change BitVec.ofBool (decide (max a (-a) < Ideal.ofBits .f32 0x7F800000#32)) = 1#1 at h
  rw [htop] at h
  have hlt : max a (-a) < ⊤ := by
    by_contra hn
    rw [decide_eq_false hn] at h
    exact absurd h (by decide)
  rw [max_lt_iff] at hlt
  induction a using EReal.rec with
  | bot => exact absurd hlt.2 (by simp)
  | coe r => exact ⟨r, rfl⟩
  | top => exact absurd hlt.1 (by simp)

/-- A 32-bit word whose signed value is at least 0 and below 10000 is the word of a number below 10000. -/
theorem word_of_range (w : BitVec 32) (h0 : (0#32 : BitVec 32).toInt ≤ w.toInt)
    (h1 : w.toInt < (10000#32 : BitVec 32).toInt) : ∃ v : Fin 10000, w = BitVec.ofNat 32 v.val := by
  have e0 : (0#32 : BitVec 32).toInt = 0 := by decide
  have e1 : (10000#32 : BitVec 32).toInt = 10000 := by decide
  rw [e0] at h0
  rw [e1] at h1
  have hw := w.isLt
  have ht : w.toInt = (w.toNat : ℤ) := by
    rw [BitVec.toInt_eq_toNat_cond] at h0 ⊢
    split at h0 <;> rename_i hc
    · rw [if_pos hc]
    · omega
  refine ⟨⟨w.toNat, by omega⟩, ?_⟩
  apply BitVec.eq_of_toNat_eq
  rw [BitVec.toNat_ofNat]
  exact (Nat.mod_eq_of_lt hw).symm

/-- Under the precondition every feature and every weight is a real number and every source word is a node's. -/
theorem facts_of_pre [Cert.Pre_finite_inputs.Facts] (x : FVec Ideal S10000x128 .f32) (src dst : IVec S640000 32)
    (W : FVec Ideal S128x128 .f32) (b : FVec Ideal S128 .f32)
    (h : Cert.Pre_finite_inputs.fn (F := Ideal) x src dst W b = fun _ => 1#1) :
    (∀ j, ∃ r : ℝ, x j = (r : EReal)) ∧ (∀ j, ∃ r : ℝ, W j = (r : EReal))
      ∧ (∀ e : Fin 640000, ∃ v : Fin 10000, src (ix1 e) = BitVec.ofNat 32 v.val) := by
  haveI : Subsingleton S_.Idx := ⟨fun a b => funext fun d => d.elim0⟩
  have h0 := congrFun h ix0
  dsimp only [fn, fn_part1] at h0
  change IntOp.andi _ _ = 1#1 at h0
  obtain ⟨h13, h19⟩ := IntOp.andi_eq_one.1 h0
  change IntOp.andi _ _ = 1#1 at h13
  obtain ⟨h8, _⟩ := IntOp.andi_eq_one.1 h13
  change IntOp.andi _ _ = 1#1 at h8
  obtain ⟨h3, h7⟩ := IntOp.andi_eq_one.1 h8
  refine ⟨fun j => ?_, fun j => ?_, fun e => ?_⟩
  · exact real_of_abs_lt_inf (x j) (Host.reduce_andi_all _ _ _ _ _ h3 j)
  · exact real_of_abs_lt_inf (W j) (Host.reduce_andi_all _ _ _ _ _ h7 j)
  · have he := Host.reduce_andi_all _ _ _ _ _ h19 (ix1 e)
    change IntOp.andi (IntOp.cmpi .sge (src (ix1 e)) 0#32) (IntOp.cmpi .slt (src (ix1 e)) 10000#32) = 1#1 at he
    obtain ⟨hge, hlt⟩ := IntOp.andi_eq_one.1 he
    exact word_of_range (src (ix1 e)) (IntOp.cmpi_sge.1 hge) (IntOp.cmpi_slt.1 hlt)

end Cert.PreFacts

end
-- ==== Proof.lean ====
/-
  A graph layer — gather each edge's source-node features, add them up per destination node, apply a dense linear
  map and a bias — computed two ways.  The reference gathers, scatter-adds and then multiplies by the weights.  The
  kernel multiplies first (a table x·Wᵀ, padded with zero rows), then for 512 edges at a time picks table rows and
  adds them into destination rows by two one-hot matrix products, two cores each adding up half of the edge blocks
  into a total of their own; the two totals are added and the bias goes on last.

  Over the extended reals the two agree when every feature and weight is a real number (a factor moves across a
  sum only away from the infinities) and every source index names a node (the reference wraps and clamps an index
  outside the nodes, the kernel's one-hot row for it is empty): that is the precondition.  A destination index
  outside the nodes is dropped by both.

  The frames: each kernel program runs to the end and leaves its arguments as launched, at both instances, by the
  run of @main as host lines, two kernel regions and host lines; the reference's frame is its run with the result
  dropped.  Nothing was rewritten in the idealized kernel, so it is its own idealization.
-/
import proofs.«401872_j33182917328985_3_alg».proof.Defs
import proofs.«401872_j33182917328985_3_alg».proof.Proof.Gen.Kernel
import proofs.«401872_j33182917328985_3_alg».proof.Proof.Gen.KernelIdeal
import proofs.«401872_j33182917328985_3_alg».proof.Proof.Gen.ReferenceIdeal
import proofs.«401872_j33182917328985_3_alg».proof.Proof.Gen.Pre_finite_inputs
import proofs.«401872_j33182917328985_3_alg».proof.Proof.Gen.ReferenceIdeal.Run
import proofs.«401872_j33182917328985_3_alg».proof.Proof.FI.Main
import proofs.«401872_j33182917328985_3_alg».proof.Proof.FB.Main
import proofs.«401872_j33182917328985_3_alg».proof.Proof.KernelValue
import proofs.«401872_j33182917328985_3_alg».proof.Proof.RefValue
import proofs.«401872_j33182917328985_3_alg».proof.Proof.PreFacts
import proofs.«401872_j33182917328985_3_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and keeps its arguments. -/
theorem frame_k : Cert.frame_Kernel := fun m ρ _ => Cert.Kernel.Hand.frame (F := Bits) m ρ

/-- The idealized kernel program runs and keeps its arguments. -/
theorem frame_ki : Cert.frame_KernelIdeal := fun m ρ _ => Cert.KernelIdeal.Hand.frame (F := Ideal) m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same result array: the kernel's is the multiply-first form, the reference's the
    gather-first form, and under the precondition the two are one function of the arguments. -/
theorem algebraic : Cert.algebraic_KernelIdeal_ReferenceIdeal := by
  intro m ρ m' ρ' hpre hagree
  refine ⟨fun c => Cert.KernelIdeal.Hand.W4 m ρ c (Proc.devRef .tc Cert.KernelIdeal.main_v12), ?_, ?_⟩
  · -- the kernel's run: every unscoped buffer ends at the last valuation; the arguments read back as launched
    exact (θ_run Cert.KernelIdeal.defs _ _).mono (fun r h c =>
      ⟨h c _ (Cert.KernelIdeal.Hand.mem_uc Cert.KernelIdeal.main_v12 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c)⟩)
      (Cert.KernelIdeal.Hand.run_all (F := Ideal) m ρ)
  · -- the reference's run, its result rewritten to the kernel's
    refine (θ_run Cert.ReferenceIdeal.defs _ _).mono (fun r h c => ⟨(h c).1.trans ?_, (h c).2⟩)
      (Cert.ReferenceIdeal.Value.run (F := Ideal) m' ρ')
    rw [Cert.ReferenceIdeal.RefValue.run_term m' c, (hagree c).1, (hagree c).2.1, (hagree c).2.2.1, (hagree c).2.2.2.1,
      (hagree c).2.2.2.2]
    funext j
    obtain ⟨n, o, rfl⟩ : ∃ (n : Fin 10000) (o : Fin 128), j = ix2 n o := ⟨j 0, j 1, eq_ix2 j⟩
    obtain ⟨hx, hW, hs⟩ := Cert.PreFacts.facts_of_pre _ _ _ _ _ (hpre c)
    choose s hs using hs
    rw [Cert.ReferenceIdeal.RefValue.ref_eq _ _ _ _ _ s hs n o]
    refine Eq.trans ?_ (Cert.KernelIdeal.KernelValue.kernel_value m ρ c n o).symm
    exact (Cert.Spec.kform_eq_rform _ _ _ _ _ s hx hW hs n o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
